-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16x1 .f32) (main_arg9 : FVec F S1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x1 .f32) (main_arg9 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x64 .f32) (main_arg3 : FVec F S64 .f32) (main_arg4 : FVec F S64x32 .f32) (main_arg5 : FVec F S32 .f32) (main_arg6 : FVec F S32x16 .f32) (main_arg7 : FVec F S16 .f32) (main_arg8 : FVec F S16x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S1x16 : Shape := ⟨2, ![1, 16]⟩
abbrev S100000x16 : Shape := ⟨2, ![100000, 16]⟩
abbrev S5000x16 : Shape := ⟨2, ![5000, 16]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 96
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S1x16, .f32⟩
  | .hbm, ⟨92, _⟩ => ⟨S100000x16, .f32⟩
  | .hbm, ⟨93, _⟩ => ⟨S1x1, .f32⟩
  | .hbm, ⟨94, _⟩ => ⟨S100000x1, .f32⟩
  | .hbm, ⟨95, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x16, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S16x1, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S1_S1x1 : S1.ShapeCasts S1x1
  shapeCasts_S5000x16_S5000x16 : S5000x16.ShapeCasts S5000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x16_S5000x16_1_0_0_1_n_n_wf : DotDims.WF S5000x32 S32x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x1.size a ≤ S16x1.size a
  hwx5_1 : ∀ i : grid5.Coords, EltTy.bits .f32 = 32 ∨ (Rect.block (s := S16x1) S16x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S16x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x32, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x32, .f32⟩
  | .hbm, ⟨86, _⟩ => ⟨S1700000x1, .f32⟩
  | .hbm, ⟨87, _⟩ => ⟨S1700000x32, .f32⟩
  | .hbm, ⟨88, _⟩ => ⟨S1700000x32, .f32⟩
  | .hbm, ⟨89, _⟩ => ⟨S_, .f32⟩
  | .hbm, ⟨90, _⟩ => ⟨S100000x32, .f32⟩
  | .hbm, ⟨91, _⟩ => ⟨S1700000x1, .i32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | .hbm, ⟨96, _⟩ => ⟨S_, .f32⟩
  | .hbm, ⟨97, _⟩ => ⟨S100000x32, .f32⟩
  | .hbm, ⟨98, _⟩ => ⟨S100000x32, .f32⟩
  | .hbm, ⟨99, _⟩ => ⟨S100000x16, .f32⟩
  | .hbm, ⟨100, _⟩ => ⟨S1x16, .f32⟩
  | .hbm, ⟨101, _⟩ => ⟨S100000x16, .f32⟩
  | .hbm, ⟨102, _⟩ => ⟨S100000x16, .f32⟩
  | .hbm, ⟨103, _⟩ => ⟨S_, .f32⟩
  | .hbm, ⟨104, _⟩ => ⟨S100000x16, .f32⟩
  | .hbm, ⟨105, _⟩ => ⟨S100000x16, .f32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call3_cst : Ref sig .tc := ⟨.hbm, 103, rfl⟩
abbrev main_call3_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Steps.lean ====
/-
  The host side of the kernel's @main, stretch by stretch.

  @main runs seven stretches of host operations around six pipelined regions. This module reads what each stretch
  leaves, for ANY float family and from ANY buffer contents `Wp` at the stretch's entry, in the reference's own terms:
  when the buffers a stretch reads hold the reference's stages (hypotheses), the buffer it writes holds the reference's
  next stage — the two programs apply the same operations there (the edge lists with their self-loops, the degrees and
  their inverse square roots, the gathers, the scaling by the edge norm, the scatter-adds), so the two terms are the same
  term. The bias vectors are reshaped [n] to [1, n] and the last result [100000, 1] to [100000]. The ten arguments,
  the two index lists and the edge norm are written by no later operation and staged by no region as an output: they pass
  every later stretch and every region unchanged.
-/
import proofs.«143914_j23407571763485_1_alg».proof.Proof.Gen.KernelIdeal.Frame
import proofs.«143914_j23407571763485_1_alg».proof.Proof.RefRead
import Idealize.ShloMosaic.Lib.StableHlo.Run

set_option maxRecDepth 16384

noncomputable section

namespace Cert.KernelIdeal.Steps

open Cert.KernelIdeal Cert.KernelIdeal.Gen Idealize.ShloMosaic Idealize.ShloMosaic.TcCoe Idealize.SL.Sem Idealize.ShloMosaic.StableHlo
open Idealize.ShloMosaic.Pipeline (Dat)
open Cert.ReferenceIdeal.ReadP

variable {F : FTy → Type} [FloatOps F]

/-- No operation of the stretch writes the buffer: its contents pass the stretch unchanged. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The buffers that, once written, nothing writes again and no region stages as an output: the ten arguments
    (0 … 9), the message sources and aggregation targets (10, 11; written by the first stretch), and the edge norm
    (12; written by the third). -/
abbrev kept : Fin 13 → Ref sig .tc :=
  ![main_arg0, main_arg1, main_arg2, main_arg3, main_arg4, main_arg5, main_arg6, main_arg7, main_arg8, main_arg9, main_v3, main_v6, main_v31]

/-! ## Through the host stretches, from any entry contents -/

section Stretches
variable (Wp : Valuation τ sig (Elt F))

theorem keep0 (k : Fin 13) (hk : k.val < 10) :
    StableHlo.after hostOps0 Wp (Proc.devRef .tc (kept k)) = Wp (Proc.devRef .tc (kept k)) := by
  fin_cases k <;> first | (exfalso; revert hk; decide) | unwritten hostOps0
theorem keep0_1 (k : Fin 13) (hk : k.val < 12) :
    StableHlo.after hostOps0_1 Wp (Proc.devRef .tc (kept k)) = Wp (Proc.devRef .tc (kept k)) := by
  fin_cases k <;> first | (exfalso; revert hk; decide) | unwritten hostOps0_1
theorem keep0_2 (k : Fin 13) (hk : k.val < 12) :
    StableHlo.after hostOps0_2 Wp (Proc.devRef .tc (kept k)) = Wp (Proc.devRef .tc (kept k)) := by
  fin_cases k <;> first | (exfalso; revert hk; decide) | unwritten hostOps0_2
theorem keep1 (k : Fin 13) :
    StableHlo.after hostOps1 Wp (Proc.devRef .tc (kept k)) = Wp (Proc.devRef .tc (kept k)) := by
  fin_cases k <;> unwritten hostOps1
theorem keep3 (k : Fin 13) :
    StableHlo.after hostOps3 Wp (Proc.devRef .tc (kept k)) = Wp (Proc.devRef .tc (kept k)) := by
  fin_cases k <;> unwritten hostOps3
theorem keep4 (k : Fin 13) :
    StableHlo.after hostOps4 Wp (Proc.devRef .tc (kept k)) = Wp (Proc.devRef .tc (kept k)) := by
  fin_cases k <;> unwritten hostOps4
theorem keep5 (k : Fin 13) :
    StableHlo.after hostOps5 Wp (Proc.devRef .tc (kept k)) = Wp (Proc.devRef .tc (kept k)) := by
  fin_cases k <;> unwritten hostOps5
/-- The second layer's activations pass the reshape of the next bias. -/
theorem keep4_v63 : StableHlo.after hostOps4 Wp (Proc.devRef .tc main_v63) = Wp (Proc.devRef .tc main_v63) := by
  unwritten hostOps4
/-- The hidden head activations pass the reshape of the last bias. -/
theorem keep5_v65 : StableHlo.after hostOps5 Wp (Proc.devRef .tc main_v65) = Wp (Proc.devRef .tc main_v65) := by
  unwritten hostOps5

/-- The select that zeroes the inverse square root where the degree is zero. -/
theorem step_v16 (x : (⟨S2x1600000, .i32⟩ : BufTy).Contents (Elt F))
    (h12 : Wp (Proc.devRef .tc main_v12) = val_main_v12 (F := F) x)
    (h15 : Wp (Proc.devRef .tc main_v15) = val_main_v15 (F := F) x)
    (h3 : Wp (Proc.devRef .tc main_cst_3) = val_main_cst_3 (F := F)) :
    StableHlo.after hostOps0_1 Wp (Proc.devRef .tc main_v16) = val_main_v16 (F := F) x := by
  after_results
  rw [h12, h15, h3]
  rfl

set_option maxHeartbeats 1000000 in
/-- The edge norm: the normalised degree gathered at an edge's source times the one gathered at its target. -/
theorem step_v31 (x : (⟨S2x1600000, .i32⟩ : BufTy).Contents (Elt F))
    (h3 : Wp (Proc.devRef .tc main_v3) = val_main_v3 (F := F) x)
    (h6 : Wp (Proc.devRef .tc main_v6) = val_main_v6 (F := F) x)
    (h16 : Wp (Proc.devRef .tc main_v16) = val_main_v16 (F := F) x) :
    StableHlo.after hostOps0_2 Wp (Proc.devRef .tc main_v31) = val_main_v31 (F := F) x := by
  after_results_simp
  rw [h3, h6, h16]
  rfl

set_option maxHeartbeats 1000000 in
/-- The first aggregation: rows of the first product gathered at the sources, scaled by the norm, summed at the targets. -/
theorem step_v45 (x0 : (⟨S100000x256, .f32⟩ : BufTy).Contents (Elt F)) (x1 : (⟨S2x1600000, .i32⟩ : BufTy).Contents (Elt F)) (x2 : (⟨S256x64, .f32⟩ : BufTy).Contents (Elt F))
    (h32 : Wp (Proc.devRef .tc main_v32) = val_main_v32 (F := F) x0 x2)
    (h3 : Wp (Proc.devRef .tc main_v3) = val_main_v3 (F := F) x1)
    (h6 : Wp (Proc.devRef .tc main_v6) = val_main_v6 (F := F) x1)
    (h31 : Wp (Proc.devRef .tc main_v31) = val_main_v31 (F := F) x1) :
    StableHlo.after hostOps1 Wp (Proc.devRef .tc main_v45) = val_main_v45 (F := F) x0 x1 x2 := by
  after_results_simp
  rw [h32, h3, h6, h31]
  rfl

/-- The first bias as one row. -/
theorem step_v46 (b : (⟨S64, .f32⟩ : BufTy).Contents (Elt F)) (h : Wp (Proc.devRef .tc main_arg3) = b) :
    StableHlo.after hostOps1 Wp (Proc.devRef .tc main_v46) = shapeCast S1x64 b shapeCasts_S64_S1x64 := by
  after_results
  rw [h]
  rfl

set_option maxHeartbeats 1000000 in
/-- The second aggregation. -/
theorem step_v61 (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x32, .f32⟩ : BufTy).Contents (Elt F))
    (h48 : Wp (Proc.devRef .tc main_v48) = val_main_v50 (F := F) x0 x1 x2 x3 x4)
    (h3 : Wp (Proc.devRef .tc main_v3) = val_main_v3 (F := F) x1)
    (h6 : Wp (Proc.devRef .tc main_v6) = val_main_v6 (F := F) x1)
    (h31 : Wp (Proc.devRef .tc main_v31) = val_main_v31 (F := F) x1) :
    StableHlo.after hostOps3 Wp (Proc.devRef .tc main_v61) = val_main_v63 (F := F) x0 x1 x2 x3 x4 := by
  after_results_simp
  rw [h48, h3, h6, h31]
  rfl

/-- The second bias as one row. -/
theorem step_v62 (b : (⟨S32, .f32⟩ : BufTy).Contents (Elt F)) (h : Wp (Proc.devRef .tc main_arg5) = b) :
    StableHlo.after hostOps3 Wp (Proc.devRef .tc main_v62) = shapeCast S1x32 b shapeCasts_S32_S1x32 := by
  after_results
  rw [h]
  rfl
/-- The hidden head's bias as one row. -/
theorem step_v64 (b : (⟨S16, .f32⟩ : BufTy).Contents (Elt F)) (h : Wp (Proc.devRef .tc main_arg7) = b) :
    StableHlo.after hostOps4 Wp (Proc.devRef .tc main_v64) = shapeCast S1x16 b shapeCasts_S16_S1x16 := by
  after_results
  rw [h]
  rfl
/-- The output bias as one entry. -/
theorem step_v66 (b : (⟨S1, .f32⟩ : BufTy).Contents (Elt F)) (h : Wp (Proc.devRef .tc main_arg9) = b) :
    StableHlo.after hostOps5 Wp (Proc.devRef .tc main_v66) = shapeCast S1x1 b shapeCasts_S1_S1x1 := by
  after_results
  rw [h]
  rfl
/-- The result with its unit axis dropped. -/
theorem step_v68 (y : (⟨S100000x1, .f32⟩ : BufTy).Contents (Elt F)) (h : Wp (Proc.devRef .tc main_v67) = y) :
    StableHlo.after hostOps6 Wp (Proc.devRef .tc main_v68) = shapeCast S100000 y shapeCasts_S100000x1_S100000 := by
  after_results
  rw [h]
  rfl

end Stretches

/-! ## The first stretch, from the launch memory -/

section Run
variable (m : (ℓ : Loc nD τ sig) → Buf (Elt F) ℓ) (ρ : Dev nD → PrngReg) (c : Dev nD)

theorem first_v3 : W1 m ρ c (Proc.devRef .tc main_v3) = val_main_v3 (F := F) (m ((c : Thread nD τ).loc main_arg1)) := by
  show StableHlo.after hostOps0 (W0 m ρ c) (Proc.devRef .tc main_v3) = _
  after_results
  rfl
theorem first_v6 : W1 m ρ c (Proc.devRef .tc main_v6) = val_main_v6 (F := F) (m ((c : Thread nD τ).loc main_arg1)) := by
  show StableHlo.after hostOps0 (W0 m ρ c) (Proc.devRef .tc main_v6) = _
  after_results
  rfl
theorem first_v12 : W1 m ρ c (Proc.devRef .tc main_v12) = val_main_v12 (F := F) (m ((c : Thread nD τ).loc main_arg1)) := by
  show StableHlo.after hostOps0 (W0 m ρ c) (Proc.devRef .tc main_v12) = _
  after_results
  rfl
theorem first_v15 : W1 m ρ c (Proc.devRef .tc main_v15) = val_main_v15 (F := F) (m ((c : Thread nD τ).loc main_arg1)) := by
  show StableHlo.after hostOps0 (W0 m ρ c) (Proc.devRef .tc main_v15) = _
  after_results
  rfl
theorem first_cst3 : W1 m ρ c (Proc.devRef .tc main_cst_3) = val_main_cst_3 (F := F) := by
  show StableHlo.after hostOps0 (W0 m ρ c) (Proc.devRef .tc main_cst_3) = _
  after_results
  rfl

/-! ## Through the regions: a region changes only its output array -/

theorem keepR0 (k : Fin 13) : W4 m ρ c (Proc.devRef .tc (kept k)) = W3 m ρ c (Proc.devRef .tc (kept k)) := by
  fin_cases k <;> first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
theorem keepR1 (k : Fin 13) : W6 m ρ c (Proc.devRef .tc (kept k)) = W5 m ρ c (Proc.devRef .tc (kept k)) := by
  fin_cases k <;> exact W6_of_ne m ρ c _ (by decide)
theorem keepR2 (k : Fin 13) : W7 m ρ c (Proc.devRef .tc (kept k)) = W6 m ρ c (Proc.devRef .tc (kept k)) := by
  fin_cases k <;> first
    | exact W7_of_ne m ρ c _ (by decide)
    | exact (W7_arr m ρ c 1).trans (((dat2 (V6 m ρ) c).arrAt_in 1 rfl _).trans (A_eq2 (V6 m ρ) c 1))
theorem keepR3 (k : Fin 13) : W9 m ρ c (Proc.devRef .tc (kept k)) = W8 m ρ c (Proc.devRef .tc (kept k)) := by
  fin_cases k <;> exact W9_of_ne m ρ c _ (by decide)
theorem keepR4 (k : Fin 13) : W11 m ρ c (Proc.devRef .tc (kept k)) = W10 m ρ c (Proc.devRef .tc (kept k)) := by
  fin_cases k <;> first
    | exact W11_of_ne m ρ c _ (by decide)
    | exact (W11_arr m ρ c 1).trans (((dat4 (V10 m ρ) c).arrAt_in 1 rfl _).trans (A_eq4 (V10 m ρ) c 1))

/-! ## The kept buffers at every boundary -/

theorem at2 (k : Fin 13) (hk : k.val < 12) : W2 m ρ c (Proc.devRef .tc (kept k)) = W1 m ρ c (Proc.devRef .tc (kept k)) :=
  keep0_1 (W1 m ρ c) k hk
theorem at3 (k : Fin 13) (hk : k.val < 12) : W3 m ρ c (Proc.devRef .tc (kept k)) = W1 m ρ c (Proc.devRef .tc (kept k)) :=
  (keep0_2 (W2 m ρ c) k hk).trans (at2 m ρ c k hk)
theorem at4 (k : Fin 13) : W4 m ρ c (Proc.devRef .tc (kept k)) = W3 m ρ c (Proc.devRef .tc (kept k)) := keepR0 m ρ c k
theorem at5 (k : Fin 13) : W5 m ρ c (Proc.devRef .tc (kept k)) = W3 m ρ c (Proc.devRef .tc (kept k)) :=
  (keep1 (W4 m ρ c) k).trans (at4 m ρ c k)
theorem at6 (k : Fin 13) : W6 m ρ c (Proc.devRef .tc (kept k)) = W3 m ρ c (Proc.devRef .tc (kept k)) :=
  (keepR1 m ρ c k).trans (at5 m ρ c k)
theorem at7 (k : Fin 13) : W7 m ρ c (Proc.devRef .tc (kept k)) = W3 m ρ c (Proc.devRef .tc (kept k)) :=
  (keepR2 m ρ c k).trans (at6 m ρ c k)
theorem at8 (k : Fin 13) : W8 m ρ c (Proc.devRef .tc (kept k)) = W3 m ρ c (Proc.devRef .tc (kept k)) :=
  (keep3 (W7 m ρ c) k).trans (at7 m ρ c k)
theorem at9 (k : Fin 13) : W9 m ρ c (Proc.devRef .tc (kept k)) = W3 m ρ c (Proc.devRef .tc (kept k)) :=
  (keepR3 m ρ c k).trans (at8 m ρ c k)
theorem at10 (k : Fin 13) : W10 m ρ c (Proc.devRef .tc (kept k)) = W3 m ρ c (Proc.devRef .tc (kept k)) :=
  (keep4 (W9 m ρ c) k).trans (at9 m ρ c k)
theorem at11 (k : Fin 13) : W11 m ρ c (Proc.devRef .tc (kept k)) = W3 m ρ c (Proc.devRef .tc (kept k)) :=
  (keepR4 m ρ c k).trans (at10 m ρ c k)
theorem at12 (k : Fin 13) : W12 m ρ c (Proc.devRef .tc (kept k)) = W3 m ρ c (Proc.devRef .tc (kept k)) :=
  (keep5 (W11 m ρ c) k).trans (at11 m ρ c k)

/-- An argument at region 0's entry is the launch memory's. -/
theorem arg3 (k : Fin 13) (hk : k.val < 10) :
    W3 m ρ c (Proc.devRef .tc (kept k)) = W0 m ρ c (Proc.devRef .tc (kept k)) :=
  (at3 m ρ c k (by omega)).trans (keep0 (W0 m ρ c) k hk)

end Run

end Cert.KernelIdeal.Steps

end
-- ==== Proof.ProductXW1.lean ====
/-
  The first dense product of the network, read off the pipeline that computes it.

  The first region multiplies the node features `x : [100000, 256]` by the weights `w1 : [256, 64]`, twenty row blocks of
  5000 rows at a time: at point `t` the body loads rows `5000 t … 5000 t + 4999` of `x`, all of `w1`, rounds both to
  bf16 (the identity on the extended reals) and stores their matrix product over a zero accumulator as rows
  `5000 t … 5000 t + 4999` of the result. Entry `(r, n)` of a block product is `∑ k, x (r, k) · w1 (k, n)` over the whole
  contraction axis (it is not blocked), so the blocks are the restrictions of ONE whole-array function,
  `(i, n) ↦ ∑ k : Fin 256, x (i, k) · w1 (k, n)`, and since the twenty blocks tile the rows, the result array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.ProductXW1

open Cert.KernelIdeal Cert.KernelIdeal.Gen Idealize.ShloMosaic Idealize.ShloMosaic.TcCoe Idealize.SL.Sem
open Idealize.ShloMosaic.Pipeline (Dat)

/-! ## One block product at an index -/

/-- In a block product the left operand's index keeps the result's row on its non-contracted axis. -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and runs over the contraction index on the contracted one. -/
theorem lhs_contr (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's index runs over the contraction index on its first axis … -/
theorem rhs_contr (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- … and keeps the result's column on the second. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Row `j 0`, column `k` of a block of the features. -/
abbrev blockRow (j : S5000x64.Idx) (k : Fin 256) : S5000x256.Idx := fun a => match a with
  | ⟨0, _⟩ => ⟨(j 0).val, (j 0).isLt⟩
  | ⟨1, _⟩ => ⟨k.val, k.isLt⟩
/-- Row `k`, column `j 1` of the weights. -/
abbrev weightCol (j : S5000x64.Idx) (k : Fin 256) : S256x64.Idx := fun a => match a with
  | ⟨0, _⟩ => ⟨k.val, k.isLt⟩
  | ⟨1, _⟩ => ⟨(j 1).val, (j 1).isLt⟩

/-- What the body stores, at an index of the block: the bf16 roundings are the identity on the extended reals and the
    accumulator is zero, so it is the plain sum of products over the contraction axis. -/
theorem stored_apply (x0 : Vec Ideal S5000x256 .f32) (x1 : Vec Ideal S256x64 .f32) (j : S5000x64.Idx) :
    k0_pay1 (F := Ideal) x0 x1 j = ∑ k : Fin 256, x0 (blockRow j k) * x1 (weightCol j k) := by
  unfold k0_pay1
  refine (Ideal.matmul_constant_zero_apply dot_S5000x256_S256x64_S5000x64_1_0_0_1_n_n none _ _ j).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = blockRow j k := funext fun a => Fin.ext (by
    match a with
    | ⟨0, _⟩ => exact lhs_row _ _
    | ⟨1, _⟩ => exact (lhs_contr _ _).trans hk)
  have er : dot_S5000x256_S256x64_S5000x64_1_0_0_1_n_n.rhsIdx j ((ValueIdx.contrEquiv1 dot_S5000x256_S256x64_S5000x64_1_0_0_1_n_n 256 rfl rfl).symm k) = weightCol j k := funext fun a => Fin.ext (by
    match a with
    | ⟨0, _⟩ => exact (rhs_contr _ _).trans hk
    | ⟨1, _⟩ => exact rhs_col _ _)
  rw [el, er]
  rfl

end Cert.KernelIdeal.ProductXW1

/-! ## The whole product, and the blocks as its restrictions -/

namespace Cert.KernelIdeal.ProductXW1

open Cert.KernelIdeal Cert.KernelIdeal.Gen Idealize.ShloMosaic Idealize.ShloMosaic.TcCoe Idealize.SL.Sem
open Idealize.ShloMosaic.Pipeline (Dat)

/-- Row `i 0`, column `k` of the features. -/
abbrev row (i : S100000x64.Idx) (k : Fin 256) : S100000x256.Idx := fun a => match a with
  | ⟨0, _⟩ => ⟨(i 0).val, (i 0).isLt⟩
  | ⟨1, _⟩ => ⟨k.val, k.isLt⟩
/-- Row `k`, column `i 1` of the weights. -/
abbrev col (i : S100000x64.Idx) (k : Fin 256) : S256x64.Idx := fun a => match a with
  | ⟨0, _⟩ => ⟨k.val, k.isLt⟩
  | ⟨1, _⟩ => ⟨(i 1).val, (i 1).isLt⟩

/-- The product of the features and the weights, entry by entry, on the extended reals. -/
def product (X : (⟨S100000x256, .f32⟩ : BufTy).Contents (Elt Ideal)) (Wt : (⟨S256x64, .f32⟩ : BufTy).Contents (Elt Ideal)) :
    (⟨S100000x64, .f32⟩ : BufTy).Contents (Elt Ideal) :=
  fun i => ∑ k : Fin 256, X (row i k) * Wt (col i k)

variable (V : (c : Dev nD) → (b : Ref sig .tc) → Buf (Elt Ideal) ((c : Thread nD τ).loc b))

/-- The features as the region finds them, at their literal type. -/
abbrev feats (c : Dev nD) : (⟨S100000x256, .f32⟩ : BufTy).Contents (Elt Ideal) := V c main_arg0
/-- The weights as the region finds them, at their literal type. -/
abbrev wts (c : Dev nD) : (⟨S256x64, .f32⟩ : BufTy).Contents (Elt Ideal) := V c main_arg2

theorem origin : (![0, 0] : Fin 2 → Nat) = fun _ => 0 := funext fun a => by fin_cases a <;> rfl

/-- The printed index maps over the grid: the features' row block moves with the result's, the weights' block is
    always the whole matrix, and the result's row block stays among the twenty. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's. -/
theorem every_block : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the arrays the region finds. -/
theorem written_eq (c : Dev nD) (t : Fin cfg0.N) :
    (dat0 (F := Ideal) V c).flushed 2 t
      = ((cfg0.win 2).blk t).view.read (Elt Ideal) (product (feats V c) (wts V c)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x64) origin]
  obtain ⟨e0, e1, e2, e3, e4, e5⟩ := index_maps t
  funext j
  show k0_pay1 (F := Ideal) (iblk0 V c 0 t) (iblk0 V c 1 t) j
      = product (feats V c) (wts V c) (((cfg0.win 2).blk t).view.emb j)
  refine (stored_apply (iblk0 V c 0 t) (iblk0 V c 1 t) j).trans ?_
  show ∑ k : Fin 256, feats V c (((cfg0.win 0).blk t).view.emb (blockRow j k)) * wts V c (((cfg0.win 1).blk t).view.emb (weightCol j k))
      = ∑ k : Fin 256, feats V c (row (((cfg0.win 2).blk t).view.emb j) k) * wts V c (col (((cfg0.win 2).blk t).view.emb j) k)
  refine Finset.sum_congr rfl fun k _ => ?_
  have hj0 : (j 0).val < 5000 := (j 0).isLt
  have hj1 : (j 1).val < 64 := (j 1).isLt
  have h0 : ((cfg0.win 0).blk t).view.emb (blockRow j k) = row (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (weightCol j k) = col (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate lies in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty row blocks tile the result: row `r` lies in the block of the point whose row block is `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := every_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its result array holds the product of the features and the weights it found. -/
theorem final (c : Dev nD) : (dat0 (F := Ideal) V c).arrAt 2 cfg0.N = product (feats V c) (wts V c) :=
  (dat0 V c).arrAt_eq_of_cover 2 (product (feats V c) (wts V c)) (fun t _ => written_eq V c t) covered

end Cert.KernelIdeal.ProductXW1

end
-- ==== Proof.BiasRelu1.lean ====
/-
  The bias and the rectifier after the first aggregation, read off the pipeline that computes them.

  The region adds the one row of biases `b : [1, 64]` to every row of the aggregated features `A : [100000, 64]` and
  takes the maximum with zero, twenty row blocks of 5000 rows at a time: at point `t` the body loads rows
  `5000 t … 5000 t + 4999` of `A` and all of `b`, and stores `max (A (r, n) + b (0, n)) 0` as entry `(r, n)` of rows
  `5000 t … 5000 t + 4999` of the result. An entry of a block depends on the entry of `A` at the same place and on the
  bias of its own column only, so the blocks are the restrictions of ONE whole-array function,
  `(i, n) ↦ max (A (i, n) + b (0, n)) 0`, and since the twenty blocks tile the rows, the result array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.BiasRelu1

open Cert.KernelIdeal Cert.KernelIdeal.Gen Idealize.ShloMosaic Idealize.ShloMosaic.TcCoe Idealize.SL.Sem
open Idealize.ShloMosaic.Pipeline (Dat)

/-! ## One block at an index -/

/-- The bias of column `j 1`: the one row of the biases, at that column. -/
abbrev blockBias (j : S5000x64.Idx) : S1x64.Idx := fun a => match a with
  | ⟨0, _⟩ => ⟨0, Nat.one_pos⟩
  | ⟨1, _⟩ => ⟨(j 1).val, (j 1).isLt⟩

/-- What the body stores, at an index of the block: the two casts to the same shape are the identity, the broadcast of
    the one row of biases over the 5000 rows reads that row at the entry's column, and the splat of the zero pattern reads
    it everywhere; so the entry is the maximum of zero and the sum of the block's entry and its column's bias. -/
theorem stored_apply (x0 : Vec Ideal S5000x64 .f32) (x1 : Vec Ideal S1x64 .f32) (j : S5000x64.Idx) :
    k1_pay1 (F := Ideal) x0 x1 j
      = FloatOps.maximumf (F := Ideal) (FloatOps.addf (F := Ideal) (x0 j) (x1 (blockBias j))) (FloatOps.ofBits .f32 0x00000000#32) := by
  unfold k1_pay1
  show FloatOps.maximumf (F := Ideal)
        (FloatOps.addf (F := Ideal) (shapeCast S5000x64 x0 shapeCasts_S5000x64_S5000x64 j)
          (broadcastTo S5000x64 (shapeCast S1x64 x1 shapeCasts_S1x64_S1x64) broadcasts_S1x64_S5000x64 j))
        (FloatOps.ofBits .f32 0x00000000#32) = _
  rw [shapeCast_self x0, shapeCast_self x1]
  rw [broadcastTo_apply x1 broadcasts_S1x64_S5000x64 j (blockBias j) (fun a => by
    match a with
    | ⟨0, _⟩ => rfl
    | ⟨1, _⟩ => rfl)]

end Cert.KernelIdeal.BiasRelu1

/-! ## The whole array, and the blocks as its restrictions -/

namespace Cert.KernelIdeal.BiasRelu1

open Cert.KernelIdeal Cert.KernelIdeal.Gen Idealize.ShloMosaic Idealize.ShloMosaic.TcCoe Idealize.SL.Sem
open Idealize.ShloMosaic.Pipeline (Dat)

/-- The bias of column `i 1`: the one row of the biases, at that column. -/
abbrev biasIdx (i : S100000x64.Idx) : S1x64.Idx := fun a => match a with
  | ⟨0, _⟩ => ⟨0, Nat.one_pos⟩
  | ⟨1, _⟩ => ⟨(i 1).val, (i 1).isLt⟩

/-- The features with their column's bias added and negative sums replaced by zero, entry by entry, on the extended
    reals. -/
def biasRelu (A : (⟨S100000x64, .f32⟩ : BufTy).Contents (Elt Ideal)) (b : (⟨S1x64, .f32⟩ : BufTy).Contents (Elt Ideal)) :
    (⟨S100000x64, .f32⟩ : BufTy).Contents (Elt Ideal) :=
  fun i => FloatOps.maximumf (F := Ideal) (FloatOps.addf (F := Ideal) (A i) (b (biasIdx i))) (FloatOps.ofBits .f32 0x00000000#32)

variable (V : (c : Dev nD) → (b : Ref sig .tc) → Buf (Elt Ideal) ((c : Thread nD τ).loc b))

/-- The aggregated features as the region finds them, at their literal type. -/
abbrev agg (c : Dev nD) : (⟨S100000x64, .f32⟩ : BufTy).Contents (Elt Ideal) := V c main_v45
/-- The biases as the region finds them, at their literal type. -/
abbrev bias (c : Dev nD) : (⟨S1x64, .f32⟩ : BufTy).Contents (Elt Ideal) := V c main_v46

theorem origin : (![0, 0] : Fin 2 → Nat) = fun _ => 0 := funext fun a => by fin_cases a <;> rfl

/-- The printed index maps over the grid: the features' row block moves with the result's, the biases' block is always
    the whole row, and the result's row block stays among the twenty. -/
theorem index_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the twenty row blocks is some point's. -/
theorem every_block : ∀ q : Fin 20, ∃ t : Fin cfg1.N, win1_2.index t = ![q.val, 0] :=
  (by decide +kernel : ∀ q : Fin 20, ∃ t : Fin grid1.N, win1_2.index t = ![q.val, 0])

/-- What point `t` writes back is block `t` of the biased and rectified array of the arrays the region finds. -/
theorem written_eq (c : Dev nD) (t : Fin cfg1.N) :
    (dat1 (F := Ideal) V c).flushed 2 t
      = ((cfg1.win 2).blk t).view.read (Elt Ideal) (biasRelu (agg V c) (bias V c)) := by
  show (cfg1.win 2).cut (grid1.coords t) ((dat1 V c).after 2 t) = _
  rw [after1_2]
  unfold out1_2
  rw [View.canon_unit_zero origin]
  simp only [View.ld_unit_zero (S := S5000x64) origin, View.ld_unit_zero (S := S1x64) origin]
  obtain ⟨e0, e1, e2, e3, e4, e5⟩ := index_maps t
  funext j
  show k1_pay1 (F := Ideal) (iblk1 V c 0 t) (iblk1 V c 1 t) j
      = biasRelu (agg V c) (bias V c) (((cfg1.win 2).blk t).view.emb j)
  refine (stored_apply (iblk1 V c 0 t) (iblk1 V c 1 t) j).trans ?_
  show FloatOps.maximumf (F := Ideal) (FloatOps.addf (F := Ideal) (agg V c (((cfg1.win 0).blk t).view.emb j)) (bias V c (((cfg1.win 1).blk t).view.emb (blockBias j)))) (FloatOps.ofBits .f32 0x00000000#32)
      = FloatOps.maximumf (F := Ideal) (FloatOps.addf (F := Ideal) (agg V c (((cfg1.win 2).blk t).view.emb j)) (bias V c (biasIdx (((cfg1.win 2).blk t).view.emb j)))) (FloatOps.ofBits .f32 0x00000000#32)
  have hj0 : (j 0).val < 5000 := (j 0).isLt
  have hj1 : (j 1).val < 64 := (j 1).isLt
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (blockBias j) = biasIdx (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the result is in point `t`'s block iff each coordinate lies in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The twenty row blocks tile the result: row `r` lies in the block of the point whose row block is `r / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := every_block ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region its result array holds the features it found, each with its column's bias added and cut off below
    at zero. -/
theorem final (c : Dev nD) : (dat1 (F := Ideal) V c).arrAt 2 cfg1.N = biasRelu (agg V c) (bias V c) :=
  (dat1 V c).arrAt_eq_of_cover 2 (biasRelu (agg V c) (bias V c)) (fun t _ => written_eq V c t) covered

end Cert.KernelIdeal.BiasRelu1

end
-- ==== Proof.ProductHW2.lean ====
/-
  The third dense product of the network, read off the pipeline that computes it.

  The region multiplies the hidden features `h : [100000, 64]` by the weights `w : [64, 32]`, twenty row blocks of
  5000 rows at a time: at point `t` the body loads rows `5000 t … 5000 t + 4999` of `h`, all of `w`, recasts the block to
  its own shape (the identity), rounds both operands to bf16 (the identity on the extended reals) and stores their matrix
  product over a zero accumulator as rows `5000 t … 5000 t + 4999` of the result. Entry `(r, n)` of a block product is
  `∑ k, h (r, k) · w (k, n)` over the whole contraction axis (it is not blocked), so the blocks are the restrictions of
  ONE whole-array function, `(i, n) ↦ ∑ k : Fin 64, h (i, k) · w (k, n)`, and since the twenty blocks tile the rows, the
  result array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.ProductHW2

open Cert.KernelIdeal Cert.KernelIdeal.Gen Idealize.ShloMosaic Idealize.ShloMosaic.TcCoe Idealize.SL.Sem
open Idealize.ShloMosaic.Pipeline (Dat)

/-! ## One block product at an index -/

/-- In a block product the left operand's index keeps the result's row on its non-contracted axis. -/
theorem lhs_row (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and runs over the contraction index on the contracted one. -/
theorem lhs_contr (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The right operand's index runs over the contraction index on its first axis … -/
theorem rhs_contr (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … and keeps the result's column on the second. -/
theorem rhs_col (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Row `j 0`, column `k` of a block of the hidden features. -/
abbrev blockRow (j : S5000x32.Idx) (k : Fin 64) : S5000x64.Idx := fun a => match a with
  | ⟨0, _⟩ => ⟨(j 0).val, (j 0).isLt⟩
  | ⟨1, _⟩ => ⟨k.val, k.isLt⟩
/-- Row `k`, column `j 1` of the weights. -/
abbrev weightCol (j : S5000x32.Idx) (k : Fin 64) : S64x32.Idx := fun a => match a with
  | ⟨0, _⟩ => ⟨k.val, k.isLt⟩
  | ⟨1, _⟩ => ⟨(j 1).val, (j 1).isLt⟩

/-- What the body stores, at an index of the block: the cast of the left block to its own shape is the identity, the bf16
    roundings are the identity on the extended reals and the accumulator is zero, so it is the plain sum of products over
    the contraction axis. -/
theorem stored_apply (x0 : Vec Ideal S5000x64 .f32) (x1 : Vec Ideal S64x32 .f32) (j : S5000x32.Idx) :
    k2_pay1 (F := Ideal) x0 x1 j = ∑ k : Fin 64, x0 (blockRow j k) * x1 (weightCol j k) := by
  unfold k2_pay1
  refine (Ideal.matmul_constant_zero_apply dot_S5000x64_S64x32_S5000x32_1_0_0_1_n_n none _ _ j).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blockRow j k := funext fun a => Fin.ext (by
    match a with
    | ⟨0, _⟩ => exact lhs_row _ _
    | ⟨1, _⟩ => exact (lhs_contr _ _).trans hk)
  have er : dot_S5000x64_S64x32_S5000x32_1_0_0_1_n_n.rhsIdx j ((ValueIdx.contrEquiv1 dot_S5000x64_S64x32_S5000x32_1_0_0_1_n_n 64 rfl rfl).symm k) = weightCol j k := funext fun a => Fin.ext (by
    match a with
    | ⟨0, _⟩ => exact (rhs_contr _ _).trans hk
    | ⟨1, _⟩ => exact rhs_col _ _)
  rw [el, er, shapeCast_self]
  rfl

end Cert.KernelIdeal.ProductHW2

/-! ## The whole product, and the blocks as its restrictions -/

namespace Cert.KernelIdeal.ProductHW2

open Cert.KernelIdeal Cert.KernelIdeal.Gen Idealize.ShloMosaic Idealize.ShloMosaic.TcCoe Idealize.SL.Sem
open Idealize.ShloMosaic.Pipeline (Dat)

/-- Row `i 0`, column `k` of the hidden features. -/
abbrev row (i : S100000x32.Idx) (k : Fin 64) : S100000x64.Idx := fun a => match a with
  | ⟨0, _⟩ => ⟨(i 0).val, (i 0).isLt⟩
  | ⟨1, _⟩ => ⟨k.val, k.isLt⟩
/-- Row `k`, column `i 1` of the weights. -/
abbrev col (i : S100000x32.Idx) (k : Fin 64) : S64x32.Idx := fun a => match a with
  | ⟨0, _⟩ => ⟨k.val, k.isLt⟩
  | ⟨1, _⟩ => ⟨(i 1).val, (i 1).isLt⟩

/-- The product of the hidden features and the weights, entry by entry, on the extended reals. -/
def product (X : (⟨S100000x64, .f32⟩ : BufTy).Contents (Elt Ideal)) (Wt : (⟨S64x32, .f32⟩ : BufTy).Contents (Elt Ideal)) :
    (⟨S100000x32, .f32⟩ : BufTy).Contents (Elt Ideal) :=
  fun i => ∑ k : Fin 64, X (row i k) * Wt (col i k)

variable (V : (c : Dev nD) → (b : Ref sig .tc) → Buf (Elt Ideal) ((c : Thread nD τ).loc b))

/-- The hidden features as the region finds them, at their literal type. -/
abbrev feats (c : Dev nD) : (⟨S100000x64, .f32⟩ : BufTy).Contents (Elt Ideal) := V c main_v47
/-- The weights as the region finds them, at their literal type. -/
abbrev wts (c : Dev nD) : (⟨S64x32, .f32⟩ : BufTy).Contents (Elt Ideal) := V c main_arg4

theorem origin : (![0, 0] : Fin 2 → Nat) = fun _ => 0 := funext fun a => by fin_cases a <;> rfl

/-- The printed index maps over the grid: the features' row block moves with the result's, the weights' block is
    always the whole matrix, and the result's row block stays among the twenty. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks is some point's. -/
theorem every_block : ∀ q : Fin 20, ∃ t : Fin cfg2.N, win2_2.index t = ![q.val, 0] :=
  (by decide +kernel : ∀ q : Fin 20, ∃ t : Fin grid2.N, win2_2.index t = ![q.val, 0])

/-- What point `t` writes back is block `t` of the product of the arrays the region finds. -/
theorem written_eq (c : Dev nD) (t : Fin cfg2.N) :
    (dat2 (F := Ideal) V c).flushed 2 t
      = ((cfg2.win 2).blk t).view.read (Elt Ideal) (product (feats V c) (wts V c)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x32) origin]
  obtain ⟨e0, e1, e2, e3, e4, e5⟩ := index_maps t
  funext j
  show k2_pay1 (F := Ideal) (iblk2 V c 0 t) (iblk2 V c 1 t) j
      = product (feats V c) (wts V c) (((cfg2.win 2).blk t).view.emb j)
  refine (stored_apply (iblk2 V c 0 t) (iblk2 V c 1 t) j).trans ?_
  show ∑ k : Fin 64, feats V c (((cfg2.win 0).blk t).view.emb (blockRow j k)) * wts V c (((cfg2.win 1).blk t).view.emb (weightCol j k))
      = ∑ k : Fin 64, feats V c (row (((cfg2.win 2).blk t).view.emb j) k) * wts V c (col (((cfg2.win 2).blk t).view.emb j) k)
  refine Finset.sum_congr rfl fun k _ => ?_
  have hj0 : (j 0).val < 5000 := (j 0).isLt
  have hj1 : (j 1).val < 32 := (j 1).isLt
  have h0 : ((cfg2.win 0).blk t).view.emb (blockRow j k) = row (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (weightCol j k) = col (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [h0, h1]

/-- An index of the result is in point `t`'s block iff each coordinate lies in the block's range on its axis. -/
theorem mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v48).slice (win2_2.rect t)).set ↔ _
  rw [View.set_slice_whole, Rect.mem_set_unit]
  exact Iff.rfl

/-- The twenty row blocks tile the result: row `r` lies in the block of the point whose row block is `r / 5000`. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := every_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the region its result array holds the product of the hidden features and the weights it found. -/
theorem final (c : Dev nD) : (dat2 (F := Ideal) V c).arrAt 2 cfg2.N = product (feats V c) (wts V c) :=
  (dat2 V c).arrAt_eq_of_cover 2 (product (feats V c) (wts V c)) (fun t _ => written_eq V c t) covered

end Cert.KernelIdeal.ProductHW2

end
-- ==== Proof.BiasRelu2.lean ====
/-
  The bias and the rectifier after the second aggregation, read off the pipeline that computes them.

  The region adds the one row of biases `b : [1, 32]` to every row of the aggregated hidden features
  `A : [100000, 32]` and takes the maximum with zero, twenty row blocks of 5000 rows at a time: at point `t` the body
  loads rows `5000 t … 5000 t + 4999` of `A` and all of `b`, and stores `max (A (r, n) + b (0, n)) 0` as entry `(r, n)`
  of rows `5000 t … 5000 t + 4999` of the result. An entry of a block depends on the entry of `A` at the same place and
  on the bias of its own column only, so the blocks are the restrictions of ONE whole-array function,
  `(i, n) ↦ max (A (i, n) + b (0, n)) 0`, and since the twenty blocks tile the rows, the result array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.BiasRelu2

open Cert.KernelIdeal Cert.KernelIdeal.Gen Idealize.ShloMosaic Idealize.ShloMosaic.TcCoe Idealize.SL.Sem
open Idealize.ShloMosaic.Pipeline (Dat)

/-! ## One block at an index -/

/-- The bias of column `j 1`: the one row of the biases, at that column. -/
abbrev blockBias (j : S5000x32.Idx) : S1x32.Idx := fun a => match a with
  | ⟨0, _⟩ => ⟨0, Nat.one_pos⟩
  | ⟨1, _⟩ => ⟨(j 1).val, (j 1).isLt⟩

/-- What the body stores, at an index of the block: the two casts to the same shape are the identity, the broadcast of
    the one row of biases over the 5000 rows reads that row at the entry's column, and the splat of the zero pattern reads
    it everywhere; so the entry is the maximum of zero and the sum of the block's entry and its column's bias. -/
theorem stored_apply (x0 : Vec Ideal S5000x32 .f32) (x1 : Vec Ideal S1x32 .f32) (j : S5000x32.Idx) :
    k3_pay1 (F := Ideal) x0 x1 j
      = FloatOps.maximumf (F := Ideal) (FloatOps.addf (F := Ideal) (x0 j) (x1 (blockBias j))) (FloatOps.ofBits .f32 0x00000000#32) := by
  unfold k3_pay1
  show FloatOps.maximumf (F := Ideal)
        (FloatOps.addf (F := Ideal) (shapeCast S5000x32 x0 shapeCasts_S5000x32_S5000x32 j)
          (broadcastTo S5000x32 (shapeCast S1x32 x1 shapeCasts_S1x32_S1x32) broadcasts_S1x32_S5000x32 j))
        (FloatOps.ofBits .f32 0x00000000#32) = _
  rw [shapeCast_self x0, shapeCast_self x1]
  rw [broadcastTo_apply x1 broadcasts_S1x32_S5000x32 j (blockBias j) (fun a => by
    match a with
    | ⟨0, _⟩ => rfl
    | ⟨1, _⟩ => rfl)]

end Cert.KernelIdeal.BiasRelu2

/-! ## The whole array, and the blocks as its restrictions -/

namespace Cert.KernelIdeal.BiasRelu2

open Cert.KernelIdeal Cert.KernelIdeal.Gen Idealize.ShloMosaic Idealize.ShloMosaic.TcCoe Idealize.SL.Sem
open Idealize.ShloMosaic.Pipeline (Dat)

/-- The bias of column `i 1`: the one row of the biases, at that column. -/
abbrev biasIdx (i : S100000x32.Idx) : S1x32.Idx := fun a => match a with
  | ⟨0, _⟩ => ⟨0, Nat.one_pos⟩
  | ⟨1, _⟩ => ⟨(i 1).val, (i 1).isLt⟩

/-- The hidden features with their column's bias added and negative sums replaced by zero, entry by entry, on the
    extended reals. -/
def biasRelu (A : (⟨S100000x32, .f32⟩ : BufTy).Contents (Elt Ideal)) (b : (⟨S1x32, .f32⟩ : BufTy).Contents (Elt Ideal)) :
    (⟨S100000x32, .f32⟩ : BufTy).Contents (Elt Ideal) :=
  fun i => FloatOps.maximumf (F := Ideal) (FloatOps.addf (F := Ideal) (A i) (b (biasIdx i))) (FloatOps.ofBits .f32 0x00000000#32)

variable (V : (c : Dev nD) → (b : Ref sig .tc) → Buf (Elt Ideal) ((c : Thread nD τ).loc b))

/-- The aggregated hidden features as the region finds them, at their literal type. -/
abbrev agg (c : Dev nD) : (⟨S100000x32, .f32⟩ : BufTy).Contents (Elt Ideal) := V c main_v61
/-- The biases as the region finds them, at their literal type. -/
abbrev bias (c : Dev nD) : (⟨S1x32, .f32⟩ : BufTy).Contents (Elt Ideal) := V c main_v62

theorem origin : (![0, 0] : Fin 2 → Nat) = fun _ => 0 := funext fun a => by fin_cases a <;> rfl

/-- The printed index maps over the grid: the features' row block moves with the result's, the biases' block is always
    the whole row, and the result's row block stays among the twenty. -/
theorem index_maps : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the twenty row blocks is some point's. -/
theorem every_block : ∀ q : Fin 20, ∃ t : Fin cfg3.N, win3_2.index t = ![q.val, 0] :=
  (by decide +kernel : ∀ q : Fin 20, ∃ t : Fin grid3.N, win3_2.index t = ![q.val, 0])

/-- What point `t` writes back is block `t` of the biased and rectified array of the arrays the region finds. -/
theorem written_eq (c : Dev nD) (t : Fin cfg3.N) :
    (dat3 (F := Ideal) V c).flushed 2 t
      = ((cfg3.win 2).blk t).view.read (Elt Ideal) (biasRelu (agg V c) (bias V c)) := by
  show (cfg3.win 2).cut (grid3.coords t) ((dat3 V c).after 2 t) = _
  rw [after3_2]
  unfold out3_2
  rw [View.canon_unit_zero origin]
  simp only [View.ld_unit_zero (S := S5000x32) origin, View.ld_unit_zero (S := S1x32) origin]
  obtain ⟨e0, e1, e2, e3, e4, e5⟩ := index_maps t
  funext j
  show k3_pay1 (F := Ideal) (iblk3 V c 0 t) (iblk3 V c 1 t) j
      = biasRelu (agg V c) (bias V c) (((cfg3.win 2).blk t).view.emb j)
  refine (stored_apply (iblk3 V c 0 t) (iblk3 V c 1 t) j).trans ?_
  show FloatOps.maximumf (F := Ideal) (FloatOps.addf (F := Ideal) (agg V c (((cfg3.win 0).blk t).view.emb j)) (bias V c (((cfg3.win 1).blk t).view.emb (blockBias j)))) (FloatOps.ofBits .f32 0x00000000#32)
      = FloatOps.maximumf (F := Ideal) (FloatOps.addf (F := Ideal) (agg V c (((cfg3.win 2).blk t).view.emb j)) (bias V c (biasIdx (((cfg3.win 2).blk t).view.emb j)))) (FloatOps.ofBits .f32 0x00000000#32)
  have hj0 : (j 0).val < 5000 := (j 0).isLt
  have hj1 : (j 1).val < 32 := (j 1).isLt
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (blockBias j) = biasIdx (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

/-- An index of the result is in point `t`'s block iff each coordinate lies in the block's range on its axis. -/
theorem mem_block (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v63).slice (win3_2.rect t)).set ↔ _
  rw [View.set_slice_whole, Rect.mem_set_unit]
  exact Iff.rfl

/-- The twenty row blocks tile the result: row `r` lies in the block of the point whose row block is `r / 5000`. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := every_block ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the region its result array holds the hidden features it found, each with its column's bias added and cut off
    below at zero. -/
theorem final (c : Dev nD) : (dat3 (F := Ideal) V c).arrAt 2 cfg3.N = biasRelu (agg V c) (bias V c) :=
  (dat3 V c).arrAt_eq_of_cover 2 (biasRelu (agg V c) (bias V c)) (fun t _ => written_eq V c t) covered

end Cert.KernelIdeal.BiasRelu2

end
-- ==== Proof.HeadHidden.lean ====
/-
  The hidden layer of the head, read off the pipeline that computes it.

  The fifth region takes the aggregated features `h : [100000, 32]`, the weights `w : [32, 16]` and the bias row
  `b : [1, 16]`, twenty row blocks of 5000 rows at a time: at point `t` the body loads rows `5000 t … 5000 t + 4999` of
  `h`, all of `w` and all of `b`, rounds `h`'s block and `w` to bf16 (the identity on the extended reals), takes their matrix
  product over a zero accumulator, adds the bias row to every row of it and takes the maximum with zero, entry by entry;
  the result is stored as rows `5000 t … 5000 t + 4999` of the output. Entry `(r, n)` of a block is
  `max ((∑ k, h (r, k) · w (k, n)) + b (0, n)) 0`: the contraction axis is not blocked, the bias depends on the column
  only and the maximum is pointwise, so the blocks are the restrictions of ONE whole-array function, and since the twenty
  blocks tile the rows, the output array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HeadHidden

open Cert.KernelIdeal Cert.KernelIdeal.Gen Idealize.ShloMosaic Idealize.ShloMosaic.TcCoe Idealize.SL.Sem
open Idealize.ShloMosaic.Pipeline (Dat)

/-! ## One block of the layer at an index -/

/-- In a block product the left operand's index keeps the result's row on its non-contracted axis. -/
theorem lhs_row (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
/-- … and runs over the contraction index on the contracted one. -/
theorem lhs_contr (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
/-- The right operand's index runs over the contraction index on its first axis … -/
theorem rhs_contr (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
/-- … and keeps the result's column on the second. -/
theorem rhs_col (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Row `j 0`, column `k` of a block of the features. -/
abbrev blockRow (j : S5000x16.Idx) (k : Fin 32) : S5000x32.Idx := fun a => match a with
  | ⟨0, _⟩ => ⟨(j 0).val, (j 0).isLt⟩
  | ⟨1, _⟩ => ⟨k.val, k.isLt⟩
/-- Row `k`, column `j 1` of the weights. -/
abbrev weightCol (j : S5000x16.Idx) (k : Fin 32) : S32x16.Idx := fun a => match a with
  | ⟨0, _⟩ => ⟨k.val, k.isLt⟩
  | ⟨1, _⟩ => ⟨(j 1).val, (j 1).isLt⟩
/-- The one row, column `j 1` of the bias. -/
abbrev biasCol (j : S5000x16.Idx) : S1x16.Idx := fun a => match a with
  | ⟨0, _⟩ => ⟨0, Nat.one_pos⟩
  | ⟨1, _⟩ => ⟨(j 1).val, (j 1).isLt⟩

/-- The matrix product inside the body, at an index of the block: the bf16 roundings are the identity on the extended
    reals and the accumulator is zero, so it is the plain sum of products over the contraction axis. -/
theorem product_apply (x0 : Vec Ideal S5000x32 .f32) (x1 : Vec Ideal S32x16 .f32) (j : S5000x16.Idx) :
    matmul (F := Ideal) dot_S5000x32_S32x16_S5000x16_1_0_0_1_n_n none (truncf (F := Ideal) (φ := .f32) .bf16 x0 bitsLt_bf16_f32)
        (truncf (F := Ideal) (φ := .f32) .bf16 x1 bitsLt_bf16_f32) (constant (F := Ideal) S5000x16 .f32 0x00000000#32) j
      = ∑ k : Fin 32, x0 (blockRow j k) * x1 (weightCol j k) := by
  refine (Ideal.matmul_constant_zero_apply dot_S5000x32_S32x16_S5000x16_1_0_0_1_n_n none _ _ j).trans ?_
  rw [← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx j ((ValueIdx.contrEquiv1 dot_S5000x32_S32x16_S5000x16_1_0_0_1_n_n 32 rfl rfl).symm k) = blockRow j k := funext fun a => Fin.ext (by
    match a with
    | ⟨0, _⟩ => exact lhs_row _ _
    | ⟨1, _⟩ => exact (lhs_contr _ _).trans hk)
  have er : dot_S5000x32_S32x16_S5000x16_1_0_0_1_n_n.rhsIdx j ((ValueIdx.contrEquiv1 dot_S5000x32_S32x16_S5000x16_1_0_0_1_n_n 32 rfl rfl).symm k) = weightCol j k := funext fun a => Fin.ext (by
    match a with
    | ⟨0, _⟩ => exact (rhs_contr _ _).trans hk
    | ⟨1, _⟩ => exact rhs_col _ _)
  rw [el, er]
  rfl

/-- The bias row spread over the block's rows, at an index of the block: the row's entry in that column. -/
theorem bias_apply (x2 : Vec Ideal S1x16 .f32) (j : S5000x16.Idx) :
    broadcastTo S5000x16 x2 broadcasts_S1x16_S5000x16 j = x2 (biasCol j) := by
  refine broadcastTo_apply x2 broadcasts_S1x16_S5000x16 j (biasCol j) fun a => ?_
  match a with
  | ⟨0, _⟩ => exact (if_pos (show S1x16.size (0 : Fin 2) = 1 from rfl)).symm
  | ⟨1, _⟩ => exact (if_neg (show ¬ S1x16.size (1 : Fin 2) = 1 by decide)).symm

/-- What the body stores, at an index of the block: the casts to the same shape are the identity, so it is the maximum
    with zero of the sum of products plus the bias entry of the column. -/
theorem stored_apply (x0 : Vec Ideal S5000x32 .f32) (x1 : Vec Ideal S32x16 .f32) (x2 : Vec Ideal S1x16 .f32) (j : S5000x16.Idx) :
    k4_pay1 (F := Ideal) x0 x1 x2 j
      = FloatOps.maximumf (F := Ideal) (φ := .f32) (FloatOps.addf (F := Ideal) (φ := .f32) (∑ k : Fin 32, x0 (blockRow j k) * x1 (weightCol j k)) (x2 (biasCol j)))
          (FloatOps.ofBits (F := Ideal) .f32 0x00000000#32) := by
  unfold k4_pay1
  show FloatOps.maximumf (F := Ideal) (φ := .f32)
      (FloatOps.addf (F := Ideal) (φ := .f32)
        (matmul (F := Ideal) dot_S5000x32_S32x16_S5000x16_1_0_0_1_n_n none
          (truncf (F := Ideal) (φ := .f32) .bf16 (shapeCast S5000x32 x0 shapeCasts_S5000x32_S5000x32) bitsLt_bf16_f32)
          (truncf (F := Ideal) (φ := .f32) .bf16 x1 bitsLt_bf16_f32)
          (constant (F := Ideal) S5000x16 .f32 0x00000000#32) j)
        (broadcastTo S5000x16 (shapeCast S1x16 x2 shapeCasts_S1x16_S1x16) broadcasts_S1x16_S5000x16 j))
      (FloatOps.ofBits (F := Ideal) .f32 0x00000000#32) = _
  rw [shapeCast_self x0, shapeCast_self x2, product_apply, bias_apply]

end Cert.KernelIdeal.HeadHidden

/-! ## The whole layer, and the blocks as its restrictions -/

namespace Cert.KernelIdeal.HeadHidden

open Cert.KernelIdeal Cert.KernelIdeal.Gen Idealize.ShloMosaic Idealize.ShloMosaic.TcCoe Idealize.SL.Sem
open Idealize.ShloMosaic.Pipeline (Dat)

/-- Row `i 0`, column `k` of the features. -/
abbrev row (i : S100000x16.Idx) (k : Fin 32) : S100000x32.Idx := fun a => match a with
  | ⟨0, _⟩ => ⟨(i 0).val, (i 0).isLt⟩
  | ⟨1, _⟩ => ⟨k.val, k.isLt⟩
/-- Row `k`, column `i 1` of the weights. -/
abbrev col (i : S100000x16.Idx) (k : Fin 32) : S32x16.Idx := fun a => match a with
  | ⟨0, _⟩ => ⟨k.val, k.isLt⟩
  | ⟨1, _⟩ => ⟨(i 1).val, (i 1).isLt⟩
/-- The one row, column `i 1` of the bias. -/
abbrev biasIdx (i : S100000x16.Idx) : S1x16.Idx := fun a => match a with
  | ⟨0, _⟩ => ⟨0, Nat.one_pos⟩
  | ⟨1, _⟩ => ⟨(i 1).val, (i 1).isLt⟩

/-- The layer, entry by entry, on the extended reals: the features times the weights, plus the bias of the column,
    cut off below at zero. -/
def affineRelu (H : (⟨S100000x32, .f32⟩ : BufTy).Contents (Elt Ideal)) (Wt : (⟨S32x16, .f32⟩ : BufTy).Contents (Elt Ideal))
    (b : (⟨S1x16, .f32⟩ : BufTy).Contents (Elt Ideal)) : (⟨S100000x16, .f32⟩ : BufTy).Contents (Elt Ideal) :=
  fun i => FloatOps.maximumf (F := Ideal) (φ := .f32) (FloatOps.addf (F := Ideal) (φ := .f32) (∑ k : Fin 32, H (row i k) * Wt (col i k)) (b (biasIdx i))) (FloatOps.ofBits (F := Ideal) .f32 0x00000000#32)

variable (V : (c : Dev nD) → (b : Ref sig .tc) → Buf (Elt Ideal) ((c : Thread nD τ).loc b))

/-- The features as the region finds them, at their literal type. -/
abbrev feats (c : Dev nD) : (⟨S100000x32, .f32⟩ : BufTy).Contents (Elt Ideal) := V c main_v63
/-- The weights as the region finds them, at their literal type. -/
abbrev wts (c : Dev nD) : (⟨S32x16, .f32⟩ : BufTy).Contents (Elt Ideal) := V c main_arg6
/-- The bias row as the region finds it, at its literal type. -/
abbrev bias (c : Dev nD) : (⟨S1x16, .f32⟩ : BufTy).Contents (Elt Ideal) := V c main_v64

theorem origin : (![0, 0] : Fin 2 → Nat) = fun _ => 0 := funext fun a => by fin_cases a <;> rfl

/-- The printed index maps over the grid: the features' row block moves with the result's, the weights' and the bias's
    blocks are always the whole arrays, and the result's row block stays among the twenty. -/
theorem index_maps : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 19 :=
  (by decide +kernel : ∀ t : Fin grid4.N, _)

/-- Every one of the twenty row blocks is some point's. -/
theorem every_block : ∀ q : Fin 20, ∃ t : Fin cfg4.N, win4_3.index t = ![q.val, 0] :=
  (by decide +kernel : ∀ q : Fin 20, ∃ t : Fin grid4.N, win4_3.index t = ![q.val, 0])

/-- What point `t` writes back is block `t` of the layer of the arrays the region finds. -/
theorem written_eq (c : Dev nD) (t : Fin cfg4.N) :
    (dat4 (F := Ideal) V c).flushed 3 t
      = ((cfg4.win 3).blk t).view.read (Elt Ideal) (affineRelu (feats V c) (wts V c) (bias V c)) := by
  show (cfg4.win 3).cut (grid4.coords t) ((dat4 V c).after 3 t) = _
  rw [after4_3]
  unfold out4_3
  rw [View.canon_unit_zero origin]
  simp only [View.ld_unit_zero (S := S5000x32) origin, View.ld_unit_zero (S := S32x16) origin, View.ld_unit_zero (S := S1x16) origin]
  obtain ⟨e0, e1, e2, e3, e4, e5, e6, e7⟩ := index_maps t
  funext j
  show k4_pay1 (F := Ideal) (iblk4 V c 0 t) (iblk4 V c 1 t) (iblk4 V c 2 t) j
      = affineRelu (feats V c) (wts V c) (bias V c) (((cfg4.win 3).blk t).view.emb j)
  refine (stored_apply (iblk4 V c 0 t) (iblk4 V c 1 t) (iblk4 V c 2 t) j).trans ?_
  show FloatOps.maximumf (F := Ideal) (φ := .f32)
        (FloatOps.addf (F := Ideal) (φ := .f32)
          (∑ k : Fin 32, feats V c (((cfg4.win 0).blk t).view.emb (blockRow j k)) * wts V c (((cfg4.win 1).blk t).view.emb (weightCol j k)))
          (bias V c (((cfg4.win 2).blk t).view.emb (biasCol j))))
        (FloatOps.ofBits (F := Ideal) .f32 0x00000000#32)
      = FloatOps.maximumf (F := Ideal) (φ := .f32)
        (FloatOps.addf (F := Ideal) (φ := .f32)
          (∑ k : Fin 32, feats V c (row (((cfg4.win 3).blk t).view.emb j) k) * wts V c (col (((cfg4.win 3).blk t).view.emb j) k))
          (bias V c (biasIdx (((cfg4.win 3).blk t).view.emb j))))
        (FloatOps.ofBits (F := Ideal) .f32 0x00000000#32)
  have hj0 : (j 0).val < 5000 := (j 0).isLt
  have hj1 : (j 1).val < 16 := (j 1).isLt
  have h0 : ∀ k : Fin 32, ((cfg4.win 0).blk t).view.emb (blockRow j k) = row (((cfg4.win 3).blk t).view.emb j) k := fun k => by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 32 + 1 * k.val = k.val; omega
  have h1 : ∀ k : Fin 32, ((cfg4.win 1).blk t).view.emb (weightCol j k) = col (((cfg4.win 3).blk t).view.emb j) k := fun k => by
    funext a; apply Fin.ext
    match a with
    | ⟨0, _⟩ => show win4_1.index t (0 : Fin 2) * 32 + 1 * k.val = k.val; omega
    | ⟨1, _⟩ => show win4_1.index t (1 : Fin 2) * 16 + 1 * (j 1).val = win4_3.index t (1 : Fin 2) * 16 + 1 * (j 1).val; omega
  have h2 : ((cfg4.win 2).blk t).view.emb (biasCol j) = biasIdx (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 16 + 1 * (j 1).val = win4_3.index t (1 : Fin 2) * 16 + 1 * (j 1).val; omega
  have hs : (∑ k : Fin 32, feats V c (((cfg4.win 0).blk t).view.emb (blockRow j k)) * wts V c (((cfg4.win 1).blk t).view.emb (weightCol j k)))
      = ∑ k : Fin 32, feats V c (row (((cfg4.win 3).blk t).view.emb j) k) * wts V c (col (((cfg4.win 3).blk t).view.emb j) k) :=
    Finset.sum_congr rfl fun k _ => by rw [h0 k, h1 k]
  rw [hs, h2]

/-- An index of the result is in point `t`'s block iff each coordinate lies in the block's range on its axis. -/
theorem mem_block (t : Fin cfg4.N) (i : S100000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v65).slice (win4_3.rect t)).set ↔ _
  rw [View.set_slice_whole, Rect.mem_set_unit]
  exact Iff.rfl

/-- The twenty row blocks tile the result: row `r` lies in the block of the point whose row block is `r / 5000`. -/
theorem covered (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  obtain ⟨t, ht⟩ := every_block ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 16 ≤ (i 1).val ∧ (i 1).val < win4_3.index t (1 : Fin 2) * 16 + 16; omega

/-- After the region its result array holds the layer of the features, the weights and the bias it found. -/
theorem final (c : Dev nD) : (dat4 (F := Ideal) V c).arrAt 3 cfg4.N = affineRelu (feats V c) (wts V c) (bias V c) :=
  (dat4 V c).arrAt_eq_of_cover 3 (affineRelu (feats V c) (wts V c) (bias V c)) (fun t _ => written_eq V c t) covered

end Cert.KernelIdeal.HeadHidden

end
-- ==== Proof.HeadOut.lean ====
/-
  The output head of the network, read off the pipeline that computes it.

  The last region multiplies the hidden features `h : [100000, 16]` by the weight column `w : [16, 1]` and adds the bias
  `b : [1, 1]`, twenty row blocks of 5000 rows at a time: at point `t` the body loads rows `5000 t … 5000 t + 4999` of `h`,
  all of `w` and all of `b`, recasts the block of `h` and the bias to their own shapes (the identity), rounds the two factors
  to bf16 (the identity on the extended reals), forms their matrix product over a zero accumulator, and stores its sum with
  the bias spread along the rows as rows `5000 t … 5000 t + 4999` of the result. Entry `(r, 0)` of a block is
  `(∑ k, h (r, k) · w (k, 0)) + b (0, 0)` over the whole contraction axis (it is not blocked), so the blocks are the
  restrictions of ONE whole-array function, `(i, n) ↦ (∑ k : Fin 16, h (i, k) · w (k, n)) + b (0, n)`, and since the twenty
  blocks tile the rows, the result array ends holding it.
-/
import proofs.«143914_j23407571763485_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HeadOut

open Cert.KernelIdeal Cert.KernelIdeal.Gen Idealize.ShloMosaic Idealize.ShloMosaic.TcCoe Idealize.SL.Sem
open Idealize.ShloMosaic.Pipeline (Dat)

/-! ## One block of the head at an index -/

/-- In a block product the left operand's index keeps the result's row on its non-contracted axis. -/
theorem lhs_row (i : S5000x1.Idx) (q : dot_S5000x16_S16x1_S5000x1_1_0_0_1_n_n.contr.Idx) :
    (dot_S5000x16_S16x1_S5000x1_1_0_0_1_n_n.lhsIdx i q 0).val = (i 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
/-- … and runs over the contraction index on the contracted one. -/
theorem lhs_contr (i : S5000x1.Idx) (q : dot_S5000x16_S16x1_S5000x1_1_0_0_1_n_n.contr.Idx) :
    (dot_S5000x16_S16x1_S5000x1_1_0_0_1_n_n.lhsIdx i q 1).val = (q ⟨0, by decide⟩).val :=
  dot_S5000x16_S16x1_S5000x1_1_0_0_1_n_n.lhsIdx_val_of_single rfl i q
/-- The right operand's index runs over the contraction index on its first axis … -/
theorem rhs_contr (i : S5000x1.Idx) (q : dot_S5000x16_S16x1_S5000x1_1_0_0_1_n_n.contr.Idx) :
    (dot_S5000x16_S16x1_S5000x1_1_0_0_1_n_n.rhsIdx i q 0).val = (q ⟨0, by decide⟩).val :=
  dot_S5000x16_S16x1_S5000x1_1_0_0_1_n_n.rhsIdx_val_of_single rfl i q
/-- … and keeps the result's column on the second. -/
theorem rhs_col (i : S5000x1.Idx) (q : dot_S5000x16_S16x1_S5000x1_1_0_0_1_n_n.contr.Idx) :
    (dot_S5000x16_S16x1_S5000x1_1_0_0_1_n_n.rhsIdx i q 1).val = (i 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-- Row `j 0`, column `k` of a block of the hidden features. -/
abbrev blockRow (j : S5000x1.Idx) (k : Fin 16) : S5000x16.Idx := fun a => match a with
  | ⟨0, _⟩ => ⟨(j 0).val, (j 0).isLt⟩
  | ⟨1, _⟩ => ⟨k.val, k.isLt⟩
/-- Row `k`, column `j 1` of the weight column. -/
abbrev weightCol (j : S5000x1.Idx) (k : Fin 16) : S16x1.Idx := fun a => match a with
  | ⟨0, _⟩ => ⟨k.val, k.isLt⟩
  | ⟨1, _⟩ => ⟨(j 1).val, (j 1).isLt⟩
/-- Row `0`, column `j 1` of the bias. -/
abbrev blockBias (j : S5000x1.Idx) : S1x1.Idx := fun a => match a with
  | ⟨0, _⟩ => ⟨0, Nat.one_pos⟩
  | ⟨1, _⟩ => ⟨(j 1).val, (j 1).isLt⟩

/-- The block product at an index: the cast of the left block to its own shape is the identity, the bf16 roundings are the
    identity on the extended reals and the accumulator is zero, so it is the plain sum of products over the contraction
    axis. -/
theorem prod_apply (x0 : Vec Ideal S5000x16 .f32) (x1 : Vec Ideal S16x1 .f32) (j : S5000x1.Idx) :
    matmul (F := Ideal) dot_S5000x16_S16x1_S5000x1_1_0_0_1_n_n none (truncf .bf16 (shapeCast S5000x16 x0 shapeCasts_S5000x16_S5000x16) bitsLt_bf16_f32)
        (truncf .bf16 x1 bitsLt_bf16_f32) (constant S5000x1 .f32 0x00000000#32) j
      = ∑ k : Fin 16, x0 (blockRow j k) * x1 (weightCol j k) := by
  refine (Ideal.matmul_constant_zero_apply dot_S5000x16_S16x1_S5000x1_1_0_0_1_n_n none _ _ j).trans ?_
  rw [← Equiv.sum_comp (ValueIdx.contrEquiv1 dot_S5000x16_S16x1_S5000x1_1_0_0_1_n_n 16 rfl rfl).symm]
  refine Finset.sum_congr rfl fun k _ => ?_
  have hk := ValueIdx.contrEquiv1_symm_val dot_S5000x16_S16x1_S5000x1_1_0_0_1_n_n 16 rfl rfl k
  have el : dot_S5000x16_S16x1_S5000x1_1_0_0_1_n_n.lhsIdx j ((ValueIdx.contrEquiv1 dot_S5000x16_S16x1_S5000x1_1_0_0_1_n_n 16 rfl rfl).symm k) = blockRow j k := funext fun a => Fin.ext (by
    match a with
    | ⟨0, _⟩ => exact lhs_row _ _
    | ⟨1, _⟩ => exact (lhs_contr _ _).trans hk)
  have er : dot_S5000x16_S16x1_S5000x1_1_0_0_1_n_n.rhsIdx j ((ValueIdx.contrEquiv1 dot_S5000x16_S16x1_S5000x1_1_0_0_1_n_n 16 rfl rfl).symm k) = weightCol j k := funext fun a => Fin.ext (by
    match a with
    | ⟨0, _⟩ => exact (rhs_contr _ _).trans hk
    | ⟨1, _⟩ => exact rhs_col _ _)
  rw [el, er, shapeCast_self]
  rfl

/-- The bias spread along the rows, at an index: the cast of the bias to its own shape is the identity, and both axes of the
    bias have one entry, so every row reads the bias's only row. -/
theorem bias_apply (x2 : Vec Ideal S1x1 .f32) (j : S5000x1.Idx) :
    broadcastTo S5000x1 (shapeCast S1x1 x2 shapeCasts_S1x1_S1x1) broadcasts_S1x1_S5000x1 j = x2 (blockBias j) := by
  rw [shapeCast_self]
  refine broadcastTo_apply x2 broadcasts_S1x1_S5000x1 j (blockBias j) fun a => ?_
  have hj1 : (j 1).val < 1 := (j 1).isLt
  match a with
  | ⟨0, h⟩ => exact (if_pos (rfl : S1x1.size ⟨0, h⟩ = 1)).symm
  | ⟨1, h⟩ => exact (show (j 1).val = 0 by omega).trans (if_pos (rfl : S1x1.size ⟨1, h⟩ = 1)).symm

/-- What the body stores, at an index of the block: the block product there plus the bias's entry in that column. -/
theorem stored_apply (x0 : Vec Ideal S5000x16 .f32) (x1 : Vec Ideal S16x1 .f32) (x2 : Vec Ideal S1x1 .f32) (j : S5000x1.Idx) :
    k5_pay1 (F := Ideal) x0 x1 x2 j
      = FloatOps.addf (∑ k : Fin 16, x0 (blockRow j k) * x1 (weightCol j k)) (x2 (blockBias j)) := by
  unfold k5_pay1
  exact congrArg₂ FloatOps.addf (prod_apply x0 x1 j) (bias_apply x2 j)

end Cert.KernelIdeal.HeadOut

/-! ## The whole head, and the blocks as its restrictions -/

namespace Cert.KernelIdeal.HeadOut

open Cert.KernelIdeal Cert.KernelIdeal.Gen Idealize.ShloMosaic Idealize.ShloMosaic.TcCoe Idealize.SL.Sem
open Idealize.ShloMosaic.Pipeline (Dat)

/-- Row `i 0`, column `k` of the hidden features. -/
abbrev row (i : S100000x1.Idx) (k : Fin 16) : S100000x16.Idx := fun a => match a with
  | ⟨0, _⟩ => ⟨(i 0).val, (i 0).isLt⟩
  | ⟨1, _⟩ => ⟨k.val, k.isLt⟩
/-- Row `k`, column `i 1` of the weight column. -/
abbrev col (i : S100000x1.Idx) (k : Fin 16) : S16x1.Idx := fun a => match a with
  | ⟨0, _⟩ => ⟨k.val, k.isLt⟩
  | ⟨1, _⟩ => ⟨(i 1).val, (i 1).isLt⟩
/-- Row `0`, column `i 1` of the bias. -/
abbrev biasIdx (i : S100000x1.Idx) : S1x1.Idx := fun a => match a with
  | ⟨0, _⟩ => ⟨0, Nat.one_pos⟩
  | ⟨1, _⟩ => ⟨(i 1).val, (i 1).isLt⟩

/-- The hidden features times the weight column, plus the bias, entry by entry, on the extended reals. -/
def affine (H : (⟨S100000x16, .f32⟩ : BufTy).Contents (Elt Ideal)) (Wt : (⟨S16x1, .f32⟩ : BufTy).Contents (Elt Ideal)) (b : (⟨S1x1, .f32⟩ : BufTy).Contents (Elt Ideal)) : (⟨S100000x1, .f32⟩ : BufTy).Contents (Elt Ideal) :=
  fun i => FloatOps.addf (F := Ideal) (φ := .f32) (∑ k : Fin 16, H (row i k) * Wt (col i k)) (b (biasIdx i))

variable (V : (c : Dev nD) → (b : Ref sig .tc) → Buf (Elt Ideal) ((c : Thread nD τ).loc b))

/-- The hidden features as the region finds them, at their literal type. -/
abbrev feats (c : Dev nD) : (⟨S100000x16, .f32⟩ : BufTy).Contents (Elt Ideal) := V c main_v65
/-- The weight column as the region finds it, at its literal type. -/
abbrev wts (c : Dev nD) : (⟨S16x1, .f32⟩ : BufTy).Contents (Elt Ideal) := V c main_arg8
/-- The bias as the region finds it, at its literal type. -/
abbrev bias (c : Dev nD) : (⟨S1x1, .f32⟩ : BufTy).Contents (Elt Ideal) := V c main_v66

theorem origin : (![0, 0] : Fin 2 → Nat) = fun _ => 0 := funext fun a => by fin_cases a <;> rfl

/-- The printed index maps over the grid: the features' row block moves with the result's, the blocks of the weight
    column and of the bias are always the whole arrays, and the result's row block stays among the twenty. -/
theorem index_maps : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) ≤ 19 :=
  (by decide +kernel : ∀ t : Fin grid5.N, _)

/-- Every one of the twenty row blocks is some point's. -/
theorem every_block : ∀ q : Fin 20, ∃ t : Fin cfg5.N, win5_3.index t = ![q.val, 0] :=
  (by decide +kernel : ∀ q : Fin 20, ∃ t : Fin grid5.N, win5_3.index t = ![q.val, 0])

/-- What point `t` writes back is block `t` of the head of the arrays the region finds. -/
theorem written_eq (c : Dev nD) (t : Fin cfg5.N) :
    (dat5 (F := Ideal) V c).flushed 3 t
      = ((cfg5.win 3).blk t).view.read (Elt Ideal) (affine (feats V c) (wts V c) (bias V c)) := by
  show (cfg5.win 3).cut (grid5.coords t) ((dat5 V c).after 3 t) = _
  rw [after5_3]
  unfold out5_3
  rw [View.canon_unit_zero origin]
  simp only [View.ld_unit_zero (S := S5000x16) origin, View.ld_unit_zero (S := S16x1) origin, View.ld_unit_zero (S := S1x1) origin]
  obtain ⟨e0, e1, e2, e3, e4, e5, e6, e7⟩ := index_maps t
  funext j
  show k5_pay1 (F := Ideal) (iblk5 V c 0 t) (iblk5 V c 1 t) (iblk5 V c 2 t) j
      = affine (feats V c) (wts V c) (bias V c) (((cfg5.win 3).blk t).view.emb j)
  refine (stored_apply (iblk5 V c 0 t) (iblk5 V c 1 t) (iblk5 V c 2 t) j).trans ?_
  show FloatOps.addf (F := Ideal) (φ := .f32) (∑ k : Fin 16, feats V c (((cfg5.win 0).blk t).view.emb (blockRow j k)) * wts V c (((cfg5.win 1).blk t).view.emb (weightCol j k)))
        (bias V c (((cfg5.win 2).blk t).view.emb (blockBias j)))
      = FloatOps.addf (F := Ideal) (φ := .f32) (∑ k : Fin 16, feats V c (row (((cfg5.win 3).blk t).view.emb j) k) * wts V c (col (((cfg5.win 3).blk t).view.emb j) k))
        (bias V c (biasIdx (((cfg5.win 3).blk t).view.emb j)))
  have hj0 : (j 0).val < 5000 := (j 0).isLt
  have hj1 : (j 1).val < 1 := (j 1).isLt
  have hb : ((cfg5.win 2).blk t).view.emb (blockBias j) = biasIdx (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 1 + 1 * (j 1).val = win5_3.index t (1 : Fin 2) * 1 + 1 * (j 1).val; omega
  rw [hb]
  refine congrArg (fun s => FloatOps.addf (F := Ideal) (φ := .f32) s (bias V c (biasIdx (((cfg5.win 3).blk t).view.emb j)))) (Finset.sum_congr rfl fun k _ => ?_)
  have h0 : ((cfg5.win 0).blk t).view.emb (blockRow j k) = row (((cfg5.win 3).blk t).view.emb j) k := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 16 + 1 * k.val = k.val; omega
  have h1 : ((cfg5.win 1).blk t).view.emb (weightCol j k) = col (((cfg5.win 3).blk t).view.emb j) k := by
    funext a; apply Fin.ext
    match a with
    | ⟨0, _⟩ => show win5_1.index t (0 : Fin 2) * 16 + 1 * k.val = k.val; omega
    | ⟨1, _⟩ => show win5_1.index t (1 : Fin 2) * 1 + 1 * (j 1).val = win5_3.index t (1 : Fin 2) * 1 + 1 * (j 1).val; omega
  rw [h0, h1]

/-- An index of the result is in point `t`'s block iff each coordinate lies in the block's range on its axis. -/
theorem mem_block (t : Fin cfg5.N) (i : S100000x1.Idx) :
    i ∈ ((cfg5.win 3).blk t).view.set ↔ ∀ a : Fin 2, win5_3.index t a * S5000x1.size a ≤ (i a).val ∧ (i a).val < win5_3.index t a * S5000x1.size a + S5000x1.size a := by
  show i ∈ ((View.whole main_v67).slice (win5_3.rect t)).set ↔ _
  rw [View.set_slice_whole, Rect.mem_set_unit]
  exact Iff.rfl

/-- The twenty row blocks tile the result: row `r` lies in the block of the point whose row block is `r / 5000`. -/
theorem covered (i : S100000x1.Idx) :
    ∃ t : Fin cfg5.N, (cfg5.win 3).flush t = true ∧ i ∈ ((cfg5.win 3).blk t).view.set := by
  have hi0 : (i 0).val < 100000 := (i 0).isLt
  have hi1 : (i 1).val < 1 := (i 1).isLt
  obtain ⟨t, ht⟩ := every_block ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

/-- After the region its result array holds the head of the features, the weight column and the bias it found. -/
theorem final (c : Dev nD) : (dat5 (F := Ideal) V c).arrAt 3 cfg5.N = affine (feats V c) (wts V c) (bias V c) :=
  (dat5 V c).arrAt_eq_of_cover 3 (affine (feats V c) (wts V c) (bias V c)) (fun t _ => written_eq V c t) covered

end Cert.KernelIdeal.HeadOut

end
-- ==== Proof.BridgeRelu.lean ====
/-
  The two bias-and-rectifier layers of the kernel, applied to the reference's own earlier stages, are the reference's
  next stages.

  The kernel's layer takes an aggregated array `A : [100000, n]` and a bias row `b : [1, n]` to
  `(i, c) ↦ max (A (i, c) + b (0, c)) 0`; the row it is given is the bias vector `v : [n]` recast to `[1, n]`, whose entry
  `(0, c)` is `v c` (the two have the same position in row-major order). The reference adds to `A` the vector broadcast
  first to `[1, n]` and then to `[100000, n]`, whose entry `(i, c)` is again `v c`, and takes the maximum with a zero
  broadcast to every entry. So at every index both sides are `max (A (i, c) + v c) 0`: the bias read is the only place
  where they are spelled differently.
-/
import proofs.«143914_j23407571763485_1_alg».proof.Proof.BiasRelu1
import proofs.«143914_j23407571763485_1_alg».proof.Proof.BiasRelu2
import proofs.«143914_j23407571763485_1_alg».proof.Proof.RefRead
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe
open Cert.ReferenceIdeal.ReadP

/-! ## The first layer: 64 columns -/

/-- The bias vector recast to one row, read under column `i 1`, is the vector's entry `i 1`: position `0 · 64 + i 1` of
    the row is position `i 1` of the vector. The reference reaches the same entry through its two broadcasts. -/
theorem bias_read1 (x3 : (⟨S64, .f32⟩ : BufTy).Contents (Elt Ideal)) (i : S100000x64.Idx) :
    shapeCast S1x64 x3 shapeCasts_S64_S1x64 (BiasRelu1.biasIdx i) = x3 (idx_main_v46 (idx_main_v47 i)) :=
  shapeCast_apply x3 shapeCasts_S64_S1x64 (BiasRelu1.biasIdx i) (idx_main_v46 (idx_main_v47 i))
    (by rewrite [Shape.rowMajor_val_one, Shape.rowMajor_val_two]; show (i 1).val = 0 * 64 + (i 1).val; omega)

/-- The kernel's first bias-and-rectifier layer on the reference's first aggregation and the recast first bias vector is
    the reference's first rectified stage. -/
theorem relu1 (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal)) :
    BiasRelu1.biasRelu (val_main_v45 (F := Ideal) x0 x1 x2) (shapeCast S1x64 x3 shapeCasts_S64_S1x64) = val_main_v49 (F := Ideal) x0 x1 x2 x3 := by
  funext i
  rw [val_main_v49_apply, val_main_v48_apply, val_main_v47_apply, val_main_v46_apply, val_main_call1_v0_apply,
    val_main_call1_cst_apply]
  show FloatOps.maximumf (F := Ideal)
        (FloatOps.addf (F := Ideal) (val_main_v45 (F := Ideal) x0 x1 x2 i)
          (shapeCast S1x64 x3 shapeCasts_S64_S1x64 (BiasRelu1.biasIdx i)))
        (FloatOps.ofBits .f32 0x00000000#32) = _
  rw [bias_read1 x3 i]

/-! ## The second layer: 32 columns -/

/-- The bias vector recast to one row, read under column `i 1`, is the vector's entry `i 1`: position `0 · 32 + i 1` of
    the row is position `i 1` of the vector. The reference reaches the same entry through its two broadcasts. -/
theorem bias_read2 (x5 : (⟨S32, .f32⟩ : BufTy).Contents (Elt Ideal)) (i : S100000x32.Idx) :
    shapeCast S1x32 x5 shapeCasts_S32_S1x32 (BiasRelu2.biasIdx i) = x5 (idx_main_v64 (idx_main_v65 i)) :=
  shapeCast_apply x5 shapeCasts_S32_S1x32 (BiasRelu2.biasIdx i) (idx_main_v64 (idx_main_v65 i))
    (by rewrite [Shape.rowMajor_val_one, Shape.rowMajor_val_two]; show (i 1).val = 0 * 32 + (i 1).val; omega)

/-- The kernel's second bias-and-rectifier layer on the reference's second aggregation and the recast second bias vector
    is the reference's second rectified stage. -/
theorem relu2 (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) :
    BiasRelu2.biasRelu (val_main_v63 (F := Ideal) x0 x1 x2 x3 x4) (shapeCast S1x32 x5 shapeCasts_S32_S1x32) = val_main_v67 (F := Ideal) x0 x1 x2 x3 x4 x5 := by
  funext i
  rw [val_main_v67_apply, val_main_v66_apply, val_main_v65_apply, val_main_v64_apply, val_main_call2_v0_apply,
    val_main_call2_cst_apply]
  show FloatOps.maximumf (F := Ideal)
        (FloatOps.addf (F := Ideal) (val_main_v63 (F := Ideal) x0 x1 x2 x3 x4 i)
          (shapeCast S1x32 x5 shapeCasts_S32_S1x32 (BiasRelu2.biasIdx i)))
        (FloatOps.ofBits .f32 0x00000000#32) = _
  rw [bias_read2 x5 i]

end Cert.KernelIdeal.Bridge

end
-- ==== Proof.BridgeProducts.lean ====
/-
  Two of the network's dense layers, as the kernel computes them and as the reference does, are the same functions.

  The kernel's third product is the whole-array function `(i, n) ↦ ∑ k : Fin 64, h (i, k) · w (k, n)`; the reference's stage
  is a general contraction of the same two arrays over the same axis, which read at an index is the same sum over the same
  entries. The kernel's output head is `(i, n) ↦ (∑ k : Fin 16, h (i, k) · w (k, n)) + b (0, n)` with the bias vector `[1]`
  recast to `[1, 1]`; the reference adds to the same contraction the bias vector spread first to `[1, 1]` and then along the
  100000 rows. Both read the only entry of the bias vector, so the two sums agree entry by entry.
-/
import proofs.«143914_j23407571763485_1_alg».proof.Proof.ProductHW2
import proofs.«143914_j23407571763485_1_alg».proof.Proof.HeadOut
import proofs.«143914_j23407571763485_1_alg».proof.Proof.RefRead
import Idealize.ShloMosaic.Lib.Pipeline.Value

noncomputable section

namespace Cert.KernelIdeal.Bridge

open Cert.KernelIdeal Idealize.ShloMosaic Idealize.ShloMosaic.TcCoe
open Cert.ReferenceIdeal.ReadP

/-! ## The third product -/

/-- The left factor is read at the same entry on both sides: row `i 0`, column `k`. -/
theorem row2_eq (i : S100000x32.Idx) (k : Fin 64) : ProductHW2.row i k = lidx_main_v50 i k :=
  funext fun a => match a with
    | ⟨0, _⟩ => rfl
    | ⟨1, _⟩ => rfl
/-- The right factor is read at the same entry on both sides: row `k`, column `i 1`. -/
theorem col2_eq (i : S100000x32.Idx) (k : Fin 64) : ProductHW2.col i k = ridx_main_v50 i k :=
  funext fun a => match a with
    | ⟨0, _⟩ => rfl
    | ⟨1, _⟩ => rfl

/-- The product of the reference's second hidden layer and the third weights is the reference's next stage: at an index both
    are the sum over the 64 contracted entries of the same products. -/
theorem prod2 (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) :
    ProductHW2.product (val_main_v49 (F := Ideal) x0 x1 x2 x3) x4 = val_main_v50 (F := Ideal) x0 x1 x2 x3 x4 := by
  funext i
  rw [val_main_v50_apply]
  show ∑ k : Fin 64, val_main_v49 (F := Ideal) x0 x1 x2 x3 (ProductHW2.row i k) * x4 (ProductHW2.col i k)
      = ∑ k : Fin 64, val_main_v49 (F := Ideal) x0 x1 x2 x3 (lidx_main_v50 i k) * x4 (ridx_main_v50 i k)
  refine Finset.sum_congr rfl fun k _ => ?_
  rw [row2_eq, col2_eq]

/-! ## The output head -/

/-- The left factor is read at the same entry on both sides: row `i 0`, column `k`. -/
theorem rowH_eq (i : S100000x1.Idx) (k : Fin 16) : HeadOut.row i k = lidx_main_v73 i k :=
  funext fun a => match a with
    | ⟨0, _⟩ => rfl
    | ⟨1, _⟩ => rfl
/-- The right factor is read at the same entry on both sides: row `k`, column `i 1`. -/
theorem colH_eq (i : S100000x1.Idx) (k : Fin 16) : HeadOut.col i k = ridx_main_v73 i k :=
  funext fun a => match a with
    | ⟨0, _⟩ => rfl
    | ⟨1, _⟩ => rfl

/-- The bias vector recast to `[1, 1]`, read at row `0` and column `i 1`, is the vector's only entry: the two indices
    have the same row-major position, `0`, the column being below `1`. -/
theorem bias_eq (x9 : (⟨S1, .f32⟩ : BufTy).Contents (Elt Ideal)) (i : S100000x1.Idx) :
    shapeCast S1x1 x9 Gen.shapeCasts_S1_S1x1 (HeadOut.biasIdx i) = x9 (idx_main_v74 (idx_main_v75 i)) := by
  have hi1 : (i 1).val < 1 := (i 1).isLt
  refine shapeCast_apply x9 Gen.shapeCasts_S1_S1x1 (HeadOut.biasIdx i) (idx_main_v74 (idx_main_v75 i)) ?_
  rewrite [Shape.rowMajor_val_one, Shape.rowMajor_val_two]
  show 0 = 0 * 1 + (i 1).val
  omega

/-- The head of the reference's last hidden layer, the last weights and the recast bias is the reference's last stage before
    its final reshape: at an index both are the sum over the 16 contracted entries of the same products, plus the bias
    vector's only entry. -/
theorem out (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal)) :
    HeadOut.affine (val_main_v72 (F := Ideal) x0 x1 x2 x3 x4 x5 x6 x7) x8 (shapeCast S1x1 x9 Gen.shapeCasts_S1_S1x1)
      = val_main_v76 (F := Ideal) x0 x1 x2 x3 x4 x5 x6 x7 x8 x9 := by
  funext i
  rw [val_main_v76_apply, val_main_v73_apply, val_main_v75_apply, val_main_v74_apply]
  show FloatOps.addf (F := Ideal) (φ := .f32)
        (∑ k : Fin 16, val_main_v72 (F := Ideal) x0 x1 x2 x3 x4 x5 x6 x7 (HeadOut.row i k) * x8 (HeadOut.col i k))
        (shapeCast S1x1 x9 Gen.shapeCasts_S1_S1x1 (HeadOut.biasIdx i))
      = FloatOps.addf (F := Ideal) (φ := .f32)
        (∑ k : Fin 16, val_main_v72 (F := Ideal) x0 x1 x2 x3 x4 x5 x6 x7 (lidx_main_v73 i k) * x8 (ridx_main_v73 i k))
        (x9 (idx_main_v74 (idx_main_v75 i)))
  rw [bias_eq]
  refine congrArg (fun s => FloatOps.addf (F := Ideal) (φ := .f32) s (x9 (idx_main_v74 (idx_main_v75 i)))) (Finset.sum_congr rfl fun k _ => ?_)
  rw [rowH_eq, colH_eq]

end Cert.KernelIdeal.Bridge

end
-- ==== Proof.BridgeHidden.lean ====
/-
  The hidden layer of the head, on the reference's side.

  The reference computes the same layer in five steps: the product of its previous stage `h : [100000, 32]` with the
  weights `w : [32, 16]`; the bias vector `b : [16]` spread first to one row `[1, 16]` and then over all rows
  `[100000, 16]`; their sum; and the maximum with a zero spread over the whole shape. Read at an index `(r, n)` this is
  `max ((∑ k, h (r, k) · w (k, n)) + b n) 0`. The pipeline's whole-array function of the same `h` and `w`, taken at the
  bias vector recast as a one-row matrix, reads `max ((∑ k, h (r, k) · w (k, n)) + b' (0, n)) 0` where `b'` is the recast: the
  sums have the same summands, and entry `(0, n)` of the recast has row-major position `0 · 16 + n = n`, so it is entry
  `n` of the vector. Hence the two arrays agree at every index.
-/
import proofs.«143914_j23407571763485_1_alg».proof.Proof.HeadHidden
import proofs.«143914_j23407571763485_1_alg».proof.Proof.RefRead
import Idealize.ShloMosaic.Lib.Pipeline.Value
import Idealize.ShloMosaic.Lib.ValueIdx
import Idealize.ShloMosaic.PureOps.Ideal.Laws

noncomputable section

namespace Cert.KernelIdeal.Bridge

open Cert.KernelIdeal Idealize.ShloMosaic Idealize.ShloMosaic.TcCoe
open Cert.ReferenceIdeal.ReadP

/-- The bias vector recast as a one-row matrix, read at the row's entry in column `i 1`, is the vector's entry
    `i 1`: the two have the same row-major position. The index on the right is the one the reference's two spreads of
    the vector arrive at. -/
theorem bias_entry (x7 : (⟨S16, .f32⟩ : BufTy).Contents (Elt Ideal)) (i : S100000x16.Idx) :
    shapeCast S1x16 x7 Gen.shapeCasts_S16_S1x16 (HeadHidden.biasIdx i) = x7 (idx_main_v69 (idx_main_v70 i)) :=
  shapeCast_apply x7 Gen.shapeCasts_S16_S1x16 (HeadHidden.biasIdx i) (idx_main_v69 (idx_main_v70 i))
    (by rewrite [Shape.rowMajor_val_one, Shape.rowMajor_val_two]; show (i 1).val = 0 * 16 + (i 1).val; omega)

/-- The pipeline's layer, applied to the reference's own previous stage, the weights and the recast bias vector, is the
    reference's next stage. -/
theorem hidden (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal)) :
    HeadHidden.affineRelu (val_main_v67 (F := Ideal) x0 x1 x2 x3 x4 x5) x6 (shapeCast S1x16 x7 Gen.shapeCasts_S16_S1x16)
      = val_main_v72 (F := Ideal) x0 x1 x2 x3 x4 x5 x6 x7 := by
  funext i
  rw [val_main_v72_apply, val_main_v71_apply, val_main_v68_apply, val_main_v70_apply, val_main_v69_apply,
    val_main_call3_v0_apply, val_main_call3_cst_apply]
  unfold HeadHidden.affineRelu
  rw [bias_entry x7 i]
  rfl

end Cert.KernelIdeal.Bridge

end
-- ==== Proof.Stages.lean ====
/-
  What the kernel's buffers hold at every boundary of @main, in the reference's own stages.

  Write `a0 … a9` for the ten arguments as launched. Going through @main's fourteen segments in order:
  the first three stretches leave the message sources, the aggregation targets and the edge norm — the reference's
  `v3`, `v6`, `v31` of the edge list; region 0 leaves `x · w1` (the reference's `v32`); the next stretch gathers,
  scales and scatter-adds it (`v45`) and lays the first bias out as a row; region 1 adds the bias and clamps at zero
  (`v49`); region 2 multiplies by `w2` (`v50`); the next stretch aggregates again (`v63`); region 3 adds the second bias
  and clamps (`v67`); region 4 is the hidden head layer (`v72`), region 5 the output layer (`v76`), and the last stretch
  drops the unit axis (`v77`). Each region's output is its whole-array function of its input arrays (the region
  modules), and that function of the reference's earlier stages is the reference's next stage (the bridge modules);
  each host stretch applies the reference's own operations (the steps module).
-/
import proofs.«143914_j23407571763485_1_alg».proof.Proof.Steps
import proofs.«143914_j23407571763485_1_alg».proof.Proof.ProductXW1
import proofs.«143914_j23407571763485_1_alg».proof.Proof.BiasRelu1
import proofs.«143914_j23407571763485_1_alg».proof.Proof.ProductHW2
import proofs.«143914_j23407571763485_1_alg».proof.Proof.BiasRelu2
import proofs.«143914_j23407571763485_1_alg».proof.Proof.HeadHidden
import proofs.«143914_j23407571763485_1_alg».proof.Proof.HeadOut
import proofs.«143914_j23407571763485_1_alg».proof.Proof.BridgeRelu
import proofs.«143914_j23407571763485_1_alg».proof.Proof.BridgeProducts
import proofs.«143914_j23407571763485_1_alg».proof.Proof.BridgeHidden

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## The arguments as launched -/

abbrev a0 : (⟨S100000x256, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S256x64, .f32⟩ : BufTy).Contents (Elt Ideal) := m ((c : Thread nD τ).loc main_arg2)
abbrev a3 : (⟨S64, .f32⟩ : BufTy).Contents (Elt Ideal) := m ((c : Thread nD τ).loc main_arg3)
abbrev a4 : (⟨S64x32, .f32⟩ : BufTy).Contents (Elt Ideal) := m ((c : Thread nD τ).loc main_arg4)
abbrev a5 : (⟨S32, .f32⟩ : BufTy).Contents (Elt Ideal) := m ((c : Thread nD τ).loc main_arg5)
abbrev a6 : (⟨S32x16, .f32⟩ : BufTy).Contents (Elt Ideal) := m ((c : Thread nD τ).loc main_arg6)
abbrev a7 : (⟨S16, .f32⟩ : BufTy).Contents (Elt Ideal) := m ((c : Thread nD τ).loc main_arg7)
abbrev a8 : (⟨S16x1, .f32⟩ : BufTy).Contents (Elt Ideal) := m ((c : Thread nD τ).loc main_arg8)
abbrev a9 : (⟨S1, .f32⟩ : BufTy).Contents (Elt Ideal) := m ((c : Thread nD τ).loc main_arg9)

/-! ## The edge lists and the norm at region 0's entry -/

theorem src3 : W3 m ρ c (Proc.devRef .tc main_v3) = val_main_v3 (F := Ideal) (a1 m c) :=
  (Steps.at3 m ρ c 10 (by decide)).trans (Steps.first_v3 m ρ c)
theorem dst3 : W3 m ρ c (Proc.devRef .tc main_v6) = val_main_v6 (F := Ideal) (a1 m c) :=
  (Steps.at3 m ρ c 11 (by decide)).trans (Steps.first_v6 m ρ c)
theorem norm3 : W3 m ρ c (Proc.devRef .tc main_v31) = val_main_v31 (F := Ideal) (a1 m c) :=
  Steps.step_v31 (W2 m ρ c) (a1 m c)
    ((Steps.at2 m ρ c 10 (by decide)).trans (Steps.first_v3 m ρ c))
    ((Steps.at2 m ρ c 11 (by decide)).trans (Steps.first_v6 m ρ c))
    (Steps.step_v16 (W1 m ρ c) (a1 m c) (Steps.first_v12 m ρ c) (Steps.first_v15 m ρ c) (Steps.first_cst3 m ρ c))

/-! ## The first layer -/

/-- The first product, entry by entry, is the reference's `dot_general`. -/
theorem prod1 (x0 : (⟨S100000x256, .f32⟩ : BufTy).Contents (Elt Ideal)) (x2 : (⟨S256x64, .f32⟩ : BufTy).Contents (Elt Ideal)) :
    ProductXW1.product x0 x2 = val_main_v32 (F := Ideal) x0 x2 := by
  funext i
  rw [val_main_v32_apply]
  rfl

theorem out0 : W4 m ρ c (Proc.devRef .tc main_v32) = val_main_v32 (F := Ideal) (a0 m c) (a2 m c) := by
  refine (W4_arr m ρ c 2).trans ?_
  refine (ProductXW1.final (V3 m ρ) c).trans ?_
  have hf : ProductXW1.feats (V3 m ρ) c = a0 m c := Steps.arg3 m ρ c 0 (by decide)
  have hw : ProductXW1.wts (V3 m ρ) c = a2 m c := Steps.arg3 m ρ c 2 (by decide)
  rw [hf, hw]
  exact prod1 _ _

theorem agg1 : W5 m ρ c (Proc.devRef .tc main_v45) = val_main_v45 (F := Ideal) (a0 m c) (a1 m c) (a2 m c) :=
  Steps.step_v45 (W4 m ρ c) (a0 m c) (a1 m c) (a2 m c) (out0 m ρ c)
    ((Steps.at4 m ρ c 10).trans (src3 m ρ c)) ((Steps.at4 m ρ c 11).trans (dst3 m ρ c)) ((Steps.at4 m ρ c 12).trans (norm3 m ρ c))
theorem bias1 : W5 m ρ c (Proc.devRef .tc main_v46) = shapeCast S1x64 (a3 m c) shapeCasts_S64_S1x64 :=
  Steps.step_v46 (W4 m ρ c) (a3 m c) ((Steps.at4 m ρ c 3).trans (Steps.arg3 m ρ c 3 (by decide)))

theorem out1 : W6 m ρ c (Proc.devRef .tc main_v47) = val_main_v49 (F := Ideal) (a0 m c) (a1 m c) (a2 m c) (a3 m c) := by
  refine (W6_arr m ρ c 2).trans ?_
  refine (BiasRelu1.final (V5 m ρ) c).trans ?_
  have ha : BiasRelu1.agg (V5 m ρ) c = val_main_v45 (F := Ideal) (a0 m c) (a1 m c) (a2 m c) := agg1 m ρ c
  have hb : BiasRelu1.bias (V5 m ρ) c = shapeCast S1x64 (a3 m c) shapeCasts_S64_S1x64 := bias1 m ρ c
  rw [ha, hb]
  exact Bridge.relu1 _ _ _ _

/-! ## The second layer -/

theorem out2 : W7 m ρ c (Proc.devRef .tc main_v48) = val_main_v50 (F := Ideal) (a0 m c) (a1 m c) (a2 m c) (a3 m c) (a4 m c) := by
  refine (W7_arr m ρ c 2).trans ?_
  refine (ProductHW2.final (V6 m ρ) c).trans ?_
  have hf : ProductHW2.feats (V6 m ρ) c = val_main_v49 (F := Ideal) (a0 m c) (a1 m c) (a2 m c) (a3 m c) := out1 m ρ c
  have hw : ProductHW2.wts (V6 m ρ) c = a4 m c := (Steps.at6 m ρ c 4).trans (Steps.arg3 m ρ c 4 (by decide))
  rw [hf, hw]
  exact Bridge.prod2 _ _ _ _ _

theorem agg2 : W8 m ρ c (Proc.devRef .tc main_v61) = val_main_v63 (F := Ideal) (a0 m c) (a1 m c) (a2 m c) (a3 m c) (a4 m c) :=
  Steps.step_v61 (W7 m ρ c) (a0 m c) (a1 m c) (a2 m c) (a3 m c) (a4 m c) (out2 m ρ c)
    ((Steps.at7 m ρ c 10).trans (src3 m ρ c)) ((Steps.at7 m ρ c 11).trans (dst3 m ρ c)) ((Steps.at7 m ρ c 12).trans (norm3 m ρ c))
theorem bias2 : W8 m ρ c (Proc.devRef .tc main_v62) = shapeCast S1x32 (a5 m c) shapeCasts_S32_S1x32 :=
  Steps.step_v62 (W7 m ρ c) (a5 m c) ((Steps.at7 m ρ c 5).trans (Steps.arg3 m ρ c 5 (by decide)))

theorem out3 : W9 m ρ c (Proc.devRef .tc main_v63) = val_main_v67 (F := Ideal) (a0 m c) (a1 m c) (a2 m c) (a3 m c) (a4 m c) (a5 m c) := by
  refine (W9_arr m ρ c 2).trans ?_
  refine (BiasRelu2.final (V8 m ρ) c).trans ?_
  have ha : BiasRelu2.agg (V8 m ρ) c = val_main_v63 (F := Ideal) (a0 m c) (a1 m c) (a2 m c) (a3 m c) (a4 m c) := agg2 m ρ c
  have hb : BiasRelu2.bias (V8 m ρ) c = shapeCast S1x32 (a5 m c) shapeCasts_S32_S1x32 := bias2 m ρ c
  rw [ha, hb]
  exact Bridge.relu2 _ _ _ _ _ _

/-! ## The head -/

theorem act3 : W10 m ρ c (Proc.devRef .tc main_v63) = val_main_v67 (F := Ideal) (a0 m c) (a1 m c) (a2 m c) (a3 m c) (a4 m c) (a5 m c) :=
  (Steps.keep4_v63 (W9 m ρ c)).trans (out3 m ρ c)
theorem bias3 : W10 m ρ c (Proc.devRef .tc main_v64) = shapeCast S1x16 (a7 m c) shapeCasts_S16_S1x16 :=
  Steps.step_v64 (W9 m ρ c) (a7 m c) ((Steps.at9 m ρ c 7).trans (Steps.arg3 m ρ c 7 (by decide)))

theorem out4 : W11 m ρ c (Proc.devRef .tc main_v65)
    = val_main_v72 (F := Ideal) (a0 m c) (a1 m c) (a2 m c) (a3 m c) (a4 m c) (a5 m c) (a6 m c) (a7 m c) := by
  refine (W11_arr m ρ c 3).trans ?_
  refine (HeadHidden.final (V10 m ρ) c).trans ?_
  have hf : HeadHidden.feats (V10 m ρ) c = val_main_v67 (F := Ideal) (a0 m c) (a1 m c) (a2 m c) (a3 m c) (a4 m c) (a5 m c) := act3 m ρ c
  have hw : HeadHidden.wts (V10 m ρ) c = a6 m c := (Steps.at10 m ρ c 6).trans (Steps.arg3 m ρ c 6 (by decide))
  have hb : HeadHidden.bias (V10 m ρ) c = shapeCast S1x16 (a7 m c) shapeCasts_S16_S1x16 := bias3 m ρ c
  rw [hf, hw, hb]
  exact Bridge.hidden _ _ _ _ _ _ _ _

theorem act4 : W12 m ρ c (Proc.devRef .tc main_v65)
    = val_main_v72 (F := Ideal) (a0 m c) (a1 m c) (a2 m c) (a3 m c) (a4 m c) (a5 m c) (a6 m c) (a7 m c) :=
  (Steps.keep5_v65 (W11 m ρ c)).trans (out4 m ρ c)
theorem bias4 : W12 m ρ c (Proc.devRef .tc main_v66) = shapeCast S1x1 (a9 m c) shapeCasts_S1_S1x1 :=
  Steps.step_v66 (W11 m ρ c) (a9 m c) ((Steps.at11 m ρ c 9).trans (Steps.arg3 m ρ c 9 (by decide)))

theorem out5 : W13 m ρ c (Proc.devRef .tc main_v67)
    = val_main_v76 (F := Ideal) (a0 m c) (a1 m c) (a2 m c) (a3 m c) (a4 m c) (a5 m c) (a6 m c) (a7 m c) (a8 m c) (a9 m c) := by
  refine (W13_arr m ρ c 3).trans ?_
  refine (HeadOut.final (V12 m ρ) c).trans ?_
  have hf : HeadOut.feats (V12 m ρ) c = val_main_v72 (F := Ideal) (a0 m c) (a1 m c) (a2 m c) (a3 m c) (a4 m c) (a5 m c) (a6 m c) (a7 m c) := act4 m ρ c
  have hw : HeadOut.wts (V12 m ρ) c = a8 m c := (Steps.at12 m ρ c 8).trans (Steps.arg3 m ρ c 8 (by decide))
  have hb : HeadOut.bias (V12 m ρ) c = shapeCast S1x1 (a9 m c) shapeCasts_S1_S1x1 := bias4 m ρ c
  rw [hf, hw, hb]
  exact Bridge.out _ _ _ _ _ _ _ _ _ _

/-- The kernel's result buffer at the end of @main is the reference's last stage of the launched arguments. -/
theorem result : W14 m ρ c (Proc.devRef .tc main_v68)
    = val_main_v77 (F := Ideal) (a0 m c) (a1 m c) (a2 m c) (a3 m c) (a4 m c) (a5 m c) (a6 m c) (a7 m c) (a8 m c) (a9 m c) := by
  refine (Steps.step_v68 (W13 m ρ c) _ (out5 m ρ c)).trans ?_
  unfold val_main_v77
  rfl

end Cert.KernelIdeal.Stages

end
-- ==== Proof.lean ====
/-
  A two-layer graph convolution with a two-layer head, its six dense stages as pipelined kernels, against its plain reference.

  Both programs build the same edge lists (the given edges with a self-loop per node), the same degrees and the same
  symmetric edge norm `dinv[src] · dinv[dst]`, and aggregate with the same gather, scaling and scatter-add. They differ
  only in the dense stages: where the reference computes `h · W`, `agg + b` clamped at zero, and the two head layers on
  whole arrays, the kernel computes them twenty row blocks of 5000 at a time, rounding the matrix operands to bf16 and
  accumulating over a zero accumulator. On the extended reals the rounding is the identity and a block product's entry is
  the whole contraction sum, so every block is the restriction of the reference's whole-array stage, the twenty blocks
  tile the rows, and stage by stage the kernel's buffers hold the reference's stages of the launched arguments
  (`Stages.result`). No law beyond `0 + s = s` joins the two sides, so the precondition is never opened.
  The three frames are the generated ones (the reference's is its run with the result dropped); the idealization
  rewrote no operation, so `preserves` is `True`.
-/
import proofs.«143914_j23407571763485_1_alg».proof.Defs
import proofs.«143914_j23407571763485_1_alg».proof.Proof.Gen.Kernel
import proofs.«143914_j23407571763485_1_alg».proof.Proof.Gen.Kernel.Skeleton
import proofs.«143914_j23407571763485_1_alg».proof.Proof.Gen.Kernel.Launch
import proofs.«143914_j23407571763485_1_alg».proof.Proof.Gen.Kernel.Points
import proofs.«143914_j23407571763485_1_alg».proof.Proof.Gen.Kernel.Frame
import proofs.«143914_j23407571763485_1_alg».proof.Proof.Gen.KernelIdeal
import proofs.«143914_j23407571763485_1_alg».proof.Proof.Gen.KernelIdeal.Skeleton
import proofs.«143914_j23407571763485_1_alg».proof.Proof.Gen.KernelIdeal.Launch
import proofs.«143914_j23407571763485_1_alg».proof.Proof.Gen.KernelIdeal.Points
import proofs.«143914_j23407571763485_1_alg».proof.Proof.Gen.KernelIdeal.Frame
import proofs.«143914_j23407571763485_1_alg».proof.Proof.Gen.ReferenceIdeal
import proofs.«143914_j23407571763485_1_alg».proof.Proof.Gen.Pre_finite_inputs
import Idealize.ShloMosaic.Adequacy
import Idealize.ShloMosaic.Init
import proofs.«143914_j23407571763485_1_alg».proof.Proof.KernelRun
import proofs.«143914_j23407571763485_1_alg».proof.Proof.RefRun
import proofs.«143914_j23407571763485_1_alg».proof.Proof.RefRead
import proofs.«143914_j23407571763485_1_alg».proof.Proof.Stages

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the reference's last stage of the launched arguments in their result buffer: the kernel by
    the stages of its buffers through @main, the reference by its run read one operation at a time, the arguments
    agreeing. -/
theorem algebraic : Cert.algebraic_KernelIdeal_ReferenceIdeal := by
  intro m ρ m' ρ' _ hagree
  refine ⟨fun c => Cert.ReferenceIdeal.ReadP.val_main_v77 (F := Ideal) (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a5 m c) (Cert.KernelIdeal.Stages.a6 m c) (Cert.KernelIdeal.Stages.a7 m c) (Cert.KernelIdeal.Stages.a8 m c) (Cert.KernelIdeal.Stages.a9 m c), ?_, ?_⟩
  · exact (θ_run Cert.KernelIdeal.defs _ _).mono
      (fun r h c => ⟨(h c).1.trans (Cert.KernelIdeal.Stages.result m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v77_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
